-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1024x512 : Shape := ⟨2, ![1024, 512]⟩
abbrev S512x128 : Shape := ⟨2, ![512, 128]⟩
abbrev S1x512 : Shape := ⟨2, ![1, 512]⟩
abbrev S128x512 : Shape := ⟨2, ![128, 512]⟩
abbrev S1024 : Shape := ⟨1, ![1024]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S1024x1, .i32⟩
  | .local _ .vmem, ⟨4, _⟩ => ⟨S1024x1, .i32⟩
  | .local _ .vmem, ⟨5, _⟩ => ⟨S1x8192, .i32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v28 : BitVec 32 := Scalar.addi c0_i32 c16_i32
  let c1_i32 : BitVec 32 := 1#32
  ⟨c0_i32, v28, c1_i32⟩
def k0_mult1 (k0_t1 : Fin k0_t1_loop.trips) : BitVec 32 :=
  let c0_i32_30 : BitVec 32 := 0#32
  let c0_i32 : BitVec 32 := 0#32
  let c1_i32 : BitVec 32 := 1#32
  let arg10 : BitVec 32 := Scf.iv c0_i32 c1_i32 k0_t1
  let c1_i32_29 : BitVec 32 := 1#32
  let v42 : BitVec 32 := Scalar.muli arg10 c1_i32_29
  let v43 : BitVec 32 := Scalar.addi c0_i32_30 v42
  let c512_i32 : BitVec 32 := 512#32
  let v44 : BitVec 32 := Scalar.muli v43 c512_i32
  v44
def k0_off1 (k0_t1 : Fin k0_t1_loop.trips) : Fin 2 → Nat :=
  let c0_i32_30 : BitVec 32 := 0#32
  let c0_i32 : BitVec 32 := 0#32
  let c1_i32 : BitVec 32 := 1#32
  let arg10 : BitVec 32 := Scf.iv c0_i32 c1_i32 k0_t1
  let c1_i32_29 : BitVec 32 := 1#32
  let v42 : BitVec 32 := Scalar.muli arg10 c1_i32_29
  let v43 : BitVec 32 := Scalar.addi c0_i32_30 v42
  let c512_i32 : BitVec 32 := 512#32
  let v44 : BitVec 32 := Scalar.muli v43 c512_i32
  let v45 : BitVec 32 := v44
  let v46 : Index := Scalar.indexCast v45
  let c0_31 : Index := 0#32
  ![v46.toNat, 0]
def k0_off2 (k0_t1 : Fin k0_t1_loop.trips) : Fin 2 → Nat :=
  let c0_32 : Index := 0#32
  let c0_i32_30 : BitVec 32 := 0#32
  let c0_i32 : BitVec 32 := 0#32
  let c1_i32 : BitVec 32 := 1#32
  let arg10 : BitVec 32 := Scf.iv c0_i32 c1_i32 k0_t1
  let c1_i32_29 : BitVec 32 := 1#32
  let v42 : BitVec 32 := Scalar.muli arg10 c1_i32_29
  let v43 : BitVec 32 := Scalar.addi c0_i32_30 v42
  let c512_i32 : BitVec 32 := 512#32
  let v44 : BitVec 32 := Scalar.muli v43 c512_i32
  let v45 : BitVec 32 := v44
  let v49 : Index := Scalar.indexCast v45
  ![0, v49.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  iota_S1024x512_d0_w32 : S1024x512.Iotas .tc 32 [0]
  h_S512x128 : 0 < S512x128.numel
  shapeCasts_S512x128_S512x128 : S512x128.ShapeCasts S512x128
  h_S1x512 : 0 < S1x512.numel
  shapeCasts_S1x512_S1x512 : S1x512.ShapeCasts S1x512
  transposes_S512x128_p1_0_S128x512 : S512x128.Transposes [1, 0] S128x512
  broadcasts_S1024x1_S1024x512 : S1024x1.Broadcasts S1024x512
  broadcasts_S1x512_S1024x512 : S1x512.Broadcasts S1024x512
  iota_S1024x512_d1_w32 : S1024x512.Iotas .tc 32 [1]
  reduces_S1024x512_S1024 : S1024x512.Reduces [1] S1024
  shapeCasts_S1024_S1024x1 : S1024.ShapeCasts S1024x1
  reducesTo_S8192x1_S_d0_1 : S8192x1.ReducesTo [0, 1] S_
  h_S_ : 0 < S_.numel
  dot_S1024x128_S128x512_S1024x512_1_0_0_1_n_n_wf : DotDims.WF S1024x128 S128x512 S1024x512 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x128.size a ≤ S8192x128.size a
  k0_off2_inb : ∀ k0_t1 : Fin k0_t1_loop.trips, ∀ a, (k0_off2 k0_t1) a + S1x512.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S128x8192 : Shape := ⟨2, ![128, 8192]⟩

abbrev nBuf : Space → Nat
  | .hbm => 45
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x8192, .i32⟩
  | .hbm, ⟨5, _⟩ => ⟨S8192x8192, .i32⟩
  | .hbm, ⟨6, _⟩ => ⟨S8192x8192, .i1⟩
  | .hbm, ⟨7, _⟩ => ⟨S8192x8192, .i32⟩
  | .hbm, ⟨8, _⟩ => ⟨S8192x8192, .i32⟩
  | .hbm, ⟨9, _⟩ => ⟨S_, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S8192x8192, .i1⟩
  | .hbm, ⟨14, _⟩ => ⟨S8192x8192, .i1⟩
  | .hbm, ⟨15, _⟩ => ⟨S8192x8192, .f32⟩
  | .hbm, ⟨16, _⟩ => ⟨S8192x8192, .i1⟩
  | .hbm, ⟨17, _⟩ => ⟨S8192x8192, .i1⟩
  | .hbm, ⟨18, _⟩ => ⟨S8192x8192, .f32⟩
  | .hbm, ⟨19, _⟩ => ⟨S128x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S8192, .f32⟩
  | .hbm, ⟨33, _⟩ => ⟨S_, .f32⟩
  | .hbm, ⟨34, _⟩ => ⟨S8192, .f32⟩
  | .hbm, ⟨35, _⟩ => ⟨S8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  shapeCasts_S8192_S8192x1 : S8192.ShapeCasts S8192x1
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x128_S128x8192_1_0 : S8192x128.Transposes [1, 0] S128x8192
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Pay.lean ====
/-
  The kernel body's arithmetic as one pure function of the four operand blocks, at any float instance.

  At a grid point the body keeps, per row of its 1024-row block, four running statistics in scratch memory — the running
  maximum M of the scores seen so far, the sums P (columns whose label equals the row's) and T (all columns) of
  exp (score − M), rescaled whenever M moves, and the sum D of the scores on the diagonal — resets them, walks the 8192
  columns in 16 chunks of 512 (one matrix product of the scaled query block with a chunk of the resident feature array per
  chunk), and stores 1 · (P − exp (D − M)) − (T − P).
-/
import proofs.«408867_j74234214744332_3_alg».proof.Proof.Gen.Kernel.Skeleton
import Idealize.ShloMosaic.Lib.Pipeline.FrameBody

noncomputable section

namespace Cert.Kernel.GC

open Cert.Kernel Cert.Kernel.Gen Idealize.ShloMosaic

variable {F : FTy → Type} [FloatOps F]

/-- The four running statistics, one value per row of the block. -/
structure Stats (F : FTy → Type) where
  M : Vec F S1024x1 .f32
  P : Vec F S1024x1 .f32
  T : Vec F S1024x1 .f32
  D : Vec F S1024x1 .f32

/-- Before the first chunk: the maximum at −∞, the three sums at zero. -/
def stats0 : Stats F := ⟨k0_pay10, k0_pay11, k0_pay12, k0_pay13⟩

/-- Chunk `k` of the resident feature array: its rows 512·k … 512·k + 511. -/
abbrev kChunk (x2 : Vec F S8192x128 .bf16) (k : Fin k0_t1_loop.trips) : Vec F S512x128 .bf16 :=
  View.ld x2 (Rect.unit (s := S8192x128) (k0_off1 k) S512x128.size (k0_off1_inb k))

/-- Chunk `k` of the label row: its columns 512·k … 512·k + 511. -/
abbrev lChunk (x4 : Vec F S1x8192 .i32) (k : Fin k0_t1_loop.trips) : Vec F S1x512 .i32 :=
  View.ld x4 (Rect.unit (s := S1x8192) (k0_off2 k) S1x512.size (k0_off2_inb k))

/-- One chunk's update of the statistics, at grid coordinates `i`, from the query block `x1`, the feature array `x2`,
    the block's labels `x3` and the label row `x4`. -/
def statsStep (i : grid0.Coords) (x1 : Vec F S1024x128 .bf16) (x2 : Vec F S8192x128 .bf16) (x3 : Vec F S1024x1 .i32)
    (x4 : Vec F S1x8192 .i32) (k : Fin k0_t1_loop.trips) (s : Stats F) : Stats F where
  M := k0_pay20 (k0_pay3 (k0_pay14 x1) (kChunk x2 k) s.M)
  P := k0_pay17 (k0_pay6 (k0_pay14 x1) (k0_pay15 x3) (kChunk x2 k) (lChunk x4 k) s.M) (k0_pay9 (k0_pay14 x1) (kChunk x2 k) s.M s.M s.P)
  T := k0_pay18 (k0_pay4 (k0_pay14 x1) (kChunk x2 k) s.M s.M) (k0_pay7 (k0_pay14 x1) (kChunk x2 k) s.M) s.T
  D := k0_pay19 (k0_pay8 (k0_pay14 x1) (k0_pay16 i) 0#32 1#32 k (kChunk x2 k)) s.D

/-- The statistics after the first `k` chunks. -/
def statsAt (i : grid0.Coords) (x1 : Vec F S1024x128 .bf16) (x2 : Vec F S8192x128 .bf16) (x3 : Vec F S1024x1 .i32)
    (x4 : Vec F S1x8192 .i32) : ℕ → Stats F
  | 0 => stats0
  | k + 1 => if h : k < k0_t1_loop.trips then statsStep i x1 x2 x3 x4 ⟨k, h⟩ (statsAt i x1 x2 x3 x4 k) else statsAt i x1 x2 x3 x4 k

theorem statsAt_succ (i : grid0.Coords) (x1 : Vec F S1024x128 .bf16) (x2 : Vec F S8192x128 .bf16) (x3 : Vec F S1024x1 .i32)
    (x4 : Vec F S1x8192 .i32) (k : Fin k0_t1_loop.trips) :
    statsAt i x1 x2 x3 x4 (k.val + 1) = statsStep i x1 x2 x3 x4 k (statsAt i x1 x2 x3 x4 k.val) := by
  rw [statsAt]; exact dif_pos k.isLt

/-- What the body stores into its result block. -/
def outPay (i : grid0.Coords) (x1 : Vec F S1024x128 .bf16) (x2 : Vec F S8192x128 .bf16) (x3 : Vec F S1024x1 .i32)
    (x4 : Vec F S1x8192 .i32) : FVec F S1024x1 .f32 :=
  k0_pay1 (statsAt i x1 x2 x3 x4 k0_t1_loop.trips).D (statsAt i x1 x2 x3 x4 k0_t1_loop.trips).M
    (statsAt i x1 x2 x3 x4 k0_t1_loop.trips).P (statsAt i x1 x2 x3 x4 k0_t1_loop.trips).T (statsAt i x1 x2 x3 x4 k0_t1_loop.trips).P

end Cert.Kernel.GC

end
-- ==== Proof.K.Run.lean ====
/-
  The kernel function run once, on whole memrefs at any float instance: from the four operand buffers at their contents
  and the result and statistics buffers at anything, it ends with the operands untouched and the result buffer written by
  the one store the run finds (the witness), the statistics buffers at whatever the last chunk left.
-/
import proofs.«408867_j74234214744332_3_alg».proof.Proof.Gen.Kernel.Launch
import proofs.«408867_j74234214744332_3_alg».proof.Proof.Gen.Kernel.Skeleton
import proofs.«408867_j74234214744332_3_alg».proof.Proof.Gen.Kernel.Loops
import proofs.«408867_j74234214744332_3_alg».proof.Proof.Gen.Kernel.Points
import Idealize.ShloMosaic.Lib.Pipeline.FrameBody
import Idealize.ShloMosaic.Lib.Ring
import Idealize.ShloMosaic.Lib.Tactic
import proofs.«408867_j74234214744332_3_alg».proof.Proof.K.Pay

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The kernel function on whole memrefs: the four operand buffers at their contents, the result buffer and the
    four running-statistics buffers at anything; it returns the operands as they were, the result buffer with the
    found pieces written, the four statistics buffers at some contents. -/
noncomputable def kernelRun (c : Dev nD) (i : grid0.Coords) (arg1 : Memref sig .tc .vmem S1024x128 .bf16) (harg1 : arg1.IsWhole) (arg2 : Memref sig .tc .vmem S8192x128 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x1 : Vec F S1024x128 .bf16) (x2 : Vec F S8192x128 .bf16) (x3 : Vec F S1024x1 .i32) (x4 : Vec F S1x8192 .i32) :
    { L5 : List (View.Piece (Elt F) S1024x1 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} f)
                ∗ (∃ f, arg7.view.loc (c : Thread nD τ) ↦[arg7.view.set]{fullShare} f)
                ∗ (∃ f, arg8.view.loc (c : Thread nD τ) ↦[arg8.view.set]{fullShare} f)
                ∗ (∃ f, arg9.view.loc (c : Thread nD τ) ↦[arg9.view.set]{fullShare} f)) -∗ K ⟨⟩))
          ⊢ wp frame (wpE (defs₀ (F := F)) Variants.none c none) E (cc0__graphcut_kernel i arg1 harg1 arg2 harg2 arg3 harg3 arg4 harg4 arg5 harg5 arg6 harg6 arg7 harg7 arg8 harg8 arg9 harg9) K } := by
  refine ⟨?_, fun E K => ?run⟩
  case run =>
    simp only [cc0__graphcut_kernel_eq_skeleton]; unfold cc0__graphcut_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf1
    obtain rfl := harg2.eq_unread hf2
    obtain rfl := harg3.eq_unread hf3
    obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.Kernel.GC

end
-- ==== Proof.K.RunVal.lean ====
import proofs.«408867_j74234214744332_3_alg».proof.Proof.Gen.Kernel.Launch
import proofs.«408867_j74234214744332_3_alg».proof.Proof.Gen.Kernel.Skeleton
import proofs.«408867_j74234214744332_3_alg».proof.Proof.Gen.Kernel.Loops
import proofs.«408867_j74234214744332_3_alg».proof.Proof.Gen.Kernel.Points
import Idealize.ShloMosaic.Lib.Pipeline.FrameBody
import Idealize.ShloMosaic.Lib.Ring
import Idealize.ShloMosaic.Lib.Tactic
import proofs.«408867_j74234214744332_3_alg».proof.Proof.K.Run
import Idealize.ShloMosaic.Lib.Pipeline.Value

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The value of the kernel function's one store: the found pieces of the loop's trips read back as the pure recurrence. -/

/-- The whole-block rectangle of the result and statistics buffers, and of the query block. -/
abbrev rW : Rect S1024x1 := Rect.unit (s := S1024x1) ![0, 0] S1024x1.size inb_S1024x1_S1024x1_0_0
abbrev rQ : Rect S1024x128 := Rect.unit (s := S1024x128) ![0, 0] S1024x128.size inb_S1024x128_S1024x128_0_0

theorem hzW : (![0, 0] : Fin S1024x1.rank → ℕ) = fun _ => 0 := by funext a; fin_cases a <;> rfl
theorem hzQ : (![0, 0] : Fin S1024x128.rank → ℕ) = fun _ => 0 := by funext a; fin_cases a <;> rfl

theorem trips16 : k0_t1_loop.trips = 16 := by decide

/-- Whatever was written before, a store through the whole-shape rectangle at zero offsets leaves its payload. -/
theorem read_unit_zero_piece {κ : Kind} {sp : Space} {S : Shape} {e : EltTy} {off : Fin S.rank → Nat} (h : off = fun _ => 0)
    (inb : ∀ a, off a + S.size a ≤ S.size a) (v : View sig κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

theorem read_whole_piece {sp : Space} (v : View sig .tc sp S1024x1 .f32) (f : v.ty.Contents (Elt F)) (w : S1024x1.Idx → Elt F .f32)
    (L : List (View.Piece (Elt F) S1024x1 .f32)) :
    v.read (Elt F) (v.writes (Elt F) f ((⟨rW, w⟩ : View.Piece (Elt F) S1024x1 .f32) :: L)) = w :=
  read_unit_zero_piece hzW inb_S1024x1_S1024x1_0_0 v f w L

section

variable (𝒱 : Variants) (c : Dev nD) (bd : Option 𝒱.V) (i : grid0.Coords) (arg1 : Memref sig .tc .vmem S1024x128 .bf16) (harg1 : arg1.IsWhole) (arg2 : Memref sig .tc .vmem S8192x128 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)

/-- One trip's stores, as the run of the trip found them, in the payload names: each statistics buffer is stored whole,
    with the chunk's update of what the trip found there. -/
theorem tripL_eq (v16 : Vec F S1024x128 .bf16) (v22 : Vec F S1024x1 .i32) (X_arg2 : BufTy.Contents (Elt F) arg2.view.ty)
    (X_arg4 : BufTy.Contents (Elt F) arg4.view.ty) (k : Fin k0_t1_loop.trips)
    (f6 : BufTy.Contents (Elt F) arg6.view.ty) (f7 : BufTy.Contents (Elt F) arg7.view.ty)
    (f8 : BufTy.Contents (Elt F) arg8.view.ty) (f9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 v16 v22 X_arg2 X_arg4 k f6 f7 f8 f9
      = ([⟨rW, k0_pay20 (k0_pay3 (k0_pay14 v16)
              (View.readAt (Elt F) arg2.view (Rect.unit (s := S8192x128) (k0_off1 k) S512x128.size (k0_off1_inb k)).toLoadRect X_arg2)
              (View.readAt (Elt F) arg6.view rW.toLoadRect f6))⟩],
         [⟨rW, k0_pay17 (k0_pay6 (k0_pay14 v16) (k0_pay15 v22)
              (View.readAt (Elt F) arg2.view (Rect.unit (s := S8192x128) (k0_off1 k) S512x128.size (k0_off1_inb k)).toLoadRect X_arg2)
              (View.readAt (Elt F) arg4.view (Rect.unit (s := S1x8192) (k0_off2 k) S1x512.size (k0_off2_inb k)).toLoadRect X_arg4)
              (View.readAt (Elt F) arg6.view rW.toLoadRect f6))
            (k0_pay9 (k0_pay14 v16)
              (View.readAt (Elt F) arg2.view (Rect.unit (s := S8192x128) (k0_off1 k) S512x128.size (k0_off1_inb k)).toLoadRect X_arg2)
              (View.readAt (Elt F) arg6.view rW.toLoadRect f6) (View.readAt (Elt F) arg6.view rW.toLoadRect f6)
              (View.readAt (Elt F) arg7.view rW.toLoadRect f7))⟩],
         [⟨rW, k0_pay18 (k0_pay4 (k0_pay14 v16)
              (View.readAt (Elt F) arg2.view (Rect.unit (s := S8192x128) (k0_off1 k) S512x128.size (k0_off1_inb k)).toLoadRect X_arg2)
              (View.readAt (Elt F) arg6.view rW.toLoadRect f6) (View.readAt (Elt F) arg6.view rW.toLoadRect f6))
            (k0_pay7 (k0_pay14 v16)
              (View.readAt (Elt F) arg2.view (Rect.unit (s := S8192x128) (k0_off1 k) S512x128.size (k0_off1_inb k)).toLoadRect X_arg2)
              (View.readAt (Elt F) arg6.view rW.toLoadRect f6))
            (View.readAt (Elt F) arg8.view rW.toLoadRect f8)⟩],
         [⟨rW, k0_pay19 (k0_pay8 (k0_pay14 v16) (k0_pay16 i) 0#32 1#32 k
              (View.readAt (Elt F) arg2.view (Rect.unit (s := S8192x128) (k0_off1 k) S512x128.size (k0_off1_inb k)).toLoadRect X_arg2))
            (View.readAt (Elt F) arg9.view rW.toLoadRect f9)⟩]) := by
  unfold tripL_k0_t1 trip_k0_t1
  dsimp only
  sl_unfold_run_names
  unfold k0_pay9 k0_pay8 k0_pay7 k0_pay6 k0_pay5 k0_pay4 k0_pay3 k0_pay2
  rfl

end

section

variable (c : Dev nD) (i : grid0.Coords) (arg1 : Memref sig .tc .vmem S1024x128 .bf16) (harg1 : arg1.IsWhole) (arg2 : Memref sig .tc .vmem S8192x128 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
  (x1 : Vec F S1024x128 .bf16) (x2 : Vec F S8192x128 .bf16) (x3 : Vec F S1024x1 .i32) (x4 : Vec F S1x8192 .i32)

/-- After the resets and the first `n` trips each statistics buffer reads the pure recurrence's value: by induction on
    the trips, each trip storing whole blocks computed from what the trip before left. -/
theorem pb_read (n : ℕ) (hn : n ≤ k0_t1_loop.trips) :
    arg6.view.read (Elt F) (arg6.view.writes (Elt F) (arg6.view.writes (Elt F) arg6.view.junk [⟨rW, k0_pay10⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).1)
        = (statsAt i x1 x2 x3 x4 n).M
      ∧ arg7.view.read (Elt F) (arg7.view.writes (Elt F) (arg7.view.writes (Elt F) arg7.view.junk [⟨rW, k0_pay11⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).2.1)
        = (statsAt i x1 x2 x3 x4 n).P
      ∧ arg8.view.read (Elt F) (arg8.view.writes (Elt F) (arg8.view.writes (Elt F) arg8.view.junk [⟨rW, k0_pay12⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).2.2.1)
        = (statsAt i x1 x2 x3 x4 n).T
      ∧ arg9.view.read (Elt F) (arg9.view.writes (Elt F) (arg9.view.writes (Elt F) arg9.view.junk [⟨rW, k0_pay13⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).2.2.2)
        = (statsAt i x1 x2 x3 x4 n).D := by
  induction n with
  | zero =>
    rw [pb_k0_t1.eq_1, statsAt.eq_1]
    dsimp only [View.writes_nil, stats0]
    exact ⟨read_whole_piece _ _ _ _, read_whole_piece _ _ _ _, read_whole_piece _ _ _ _, read_whole_piece _ _ _ _⟩
  | succ n ih =>
    have hlt : n < k0_t1_loop.trips := hn
    obtain ⟨h6, h7, h8, h9⟩ := ih (Nat.le_of_lt hlt)
    rw [pb_k0_t1_succ (F := F) Variants.none c none i arg1 harg1 arg2 harg2 arg3 harg3 arg4 harg4 arg5 harg5 arg6 harg6 arg7 harg7 arg8 harg8 arg9 harg9 _ _ _ _ _ _ _ _ ⟨n, hlt⟩, tripL_eq, statsAt_succ i x1 x2 x3 x4 ⟨n, hlt⟩]
    dsimp only
    simp only [List.singleton_append, read_whole_piece, View.readAt_eq_ld, h6, h7, h8, h9,
      harg2.read_unread, harg4.read_unread, View.ld_unit_zero (S := S1024x1) hzW]
    exact ⟨rfl, rfl, rfl, rfl⟩

/-- The one store the run of the kernel function finds is of the pure recurrence's result. -/
theorem kernelRun_val : (kernelRun c i arg1 harg1 arg2 harg2 arg3 harg3 arg4 harg4 arg5 harg5 arg6 harg6 arg7 harg7 arg8 harg8 arg9 harg9 x1 x2 x3 x4).1 = [⟨rW, outPay i x1 x2 x3 x4⟩] := by
  obtain ⟨h6, h7, h8, h9⟩ := pb_read c i arg1 harg1 arg2 harg2 arg3 harg3 arg4 harg4 arg5 harg5 arg6 harg6 arg7 harg7 arg8 harg8 arg9 harg9 x1 x2 x3 x4 (Scf.trips k0_t1_loop.lb k0_t1_loop.ub k0_t1_loop.st) (le_of_eq rfl)
  unfold kernelRun
  dsimp only
  sl_unfold_run_names
  simp only [View.readAt_eq_ld, harg1.read_unread, harg3.read_unread, View.ld_unit_zero (S := S1024x1) hzW,
    View.ld_unit_zero (S := S1024x128) hzQ, View.writes_append, h6, h7, h8, h9]
  rfl

end

end Cert.Kernel.GC

end
-- ==== Proof.K.Data.lean ====
import proofs.«408867_j74234214744332_3_alg».proof.Proof.Gen.Kernel.Launch
import proofs.«408867_j74234214744332_3_alg».proof.Proof.Gen.Kernel.Skeleton
import proofs.«408867_j74234214744332_3_alg».proof.Proof.Gen.Kernel.Loops
import proofs.«408867_j74234214744332_3_alg».proof.Proof.Gen.Kernel.Points
import Idealize.ShloMosaic.Lib.Pipeline.FrameBody
import Idealize.ShloMosaic.Lib.Ring
import Idealize.ShloMosaic.Lib.Tactic
import proofs.«408867_j74234214744332_3_alg».proof.Proof.K.RunVal
import Idealize.ShloMosaic.Lib.Pipeline.Frame
import Idealize.ShloMosaic.Lib.Pipeline.Value

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the kernel is entered -/

/-- Core `c`'s buffers at launch, as a valuation, and after the three host operations before the kernel (the features in
    the narrower format, the labels as a column and as a row). -/
abbrev V₀ (c : Dev nD) : Valuation τ sig (Elt F) := fun b => m ((c : Dev nD), b)
abbrev V₁ (c : Dev nD) : Valuation τ sig (Elt F) := StableHlo.after hostOps0 (V₀ m c)

/-- The same, read at a TensorCore reference. -/
abbrev VA (c : Dev nD) (b : Ref sig .tc) : Buf (Elt F) ((c : Thread nD τ).loc b) := V₁ m c (Proc.devRef .tc b)

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (VA m c (Pipeline.arrRef spec0 w))

/-! ## The pipeline's proof data -/

/-- After the body at point `t` each operand's buffer holds its block, untouched, and the result's buffer the row values
    the body computes from the four operand blocks. The two windows on the feature array each hold half of it. -/
def dats (_ : Fin 1) (c : Dev nD) : Dat τ (Elt F) Unit ℕ (UR sig nD τ) ℕ cfg0 c where
  A w := VA m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outPay (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = VA m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outPay (grid0.coords t) (iblk m c 0 t) (iblk m c 1 t) (iblk m c 2 t) (iblk m c 3 t) := by
  dsimp only [dats]

/-- Each operand's current buffer holds its block at every point, fetched there or not: the body leaves it in place and an
    unfetched window's block index has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

end Cert.Kernel.GC

end
-- ==== Proof.K.Oblig.lean ====
import proofs.«408867_j74234214744332_3_alg».proof.Proof.Gen.Kernel.Launch
import proofs.«408867_j74234214744332_3_alg».proof.Proof.Gen.Kernel.Skeleton
import proofs.«408867_j74234214744332_3_alg».proof.Proof.Gen.Kernel.Loops
import proofs.«408867_j74234214744332_3_alg».proof.Proof.Gen.Kernel.Points
import Idealize.ShloMosaic.Lib.Pipeline.FrameBody
import Idealize.ShloMosaic.Lib.Ring
import Idealize.ShloMosaic.Lib.Tactic
import proofs.«408867_j74234214744332_3_alg».proof.Proof.K.Data

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body obligation of the pipeline: at every grid point the kernel function's run, on the blocks the pipeline hands it. -/

variable (m : (ℓ : Loc nD τ sig) → Buf (Elt F) ℓ) (ρ : Dev nD → PrngReg)

/-- Each window's current staging memref at point `t`, as the pipeline passes it to the body, and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

/-- What the body is called with at point `t`: the region invariant, the core's dues, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- And what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the operands' buffers hold their blocks, the four statistics buffers are the invariant's
    scratch at anything; the run of the kernel function applies, and its one store is the row values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4,
    show (dats m 0 c).Φ t.castSucc = Pipeline.ΦA spec0 c from rfl]
  unfold Pipeline.ΦA
  rw [scopedRest0_eq]
  iintro ⟨⟨⟨⟨%s0, S0⟩, ⟨%s1, S1⟩, ⟨%s2, S2⟩, ⟨%s3, S3⟩⟩, Hp⟩, Ho, ⟨%d0, H0⟩, ⟨%d1, H1⟩, ⟨%d2, H2⟩, ⟨%d3, H3⟩, ⟨%d4, H4⟩⟩
  iapply ((kernelRun c (grid0.coords t) (ms0_0 t) (hs0_0 t) (ms0_1 t) (hs0_1 t) (ms0_2 t) (hs0_2 t) (ms0_3 t) (hs0_3 t) (ms0_4 t) (hs0_4 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, ⟨%e4, H4⟩, ⟨%e6, S0⟩, ⟨%e7, S1⟩, ⟨%e8, S2⟩, ⟨%e9, S3⟩⟩
  isplitl [S0 S1 S2 S3 Hp]
  · isplitr [Hp]
    · isplitl [S0]; · iexists e6; simp only [View.set_whole]; iexact S0
      isplitl [S1]; · iexists e7; simp only [View.set_whole]; iexact S1
      isplitl [S2]; · iexists e8; simp only [View.set_whole]; iexact S2
      iexists e9; simp only [View.set_whole]; iexact S3
    · iexact Hp
  isplitl [Ho]; · iexact Ho
  isplitl [H0]; · iexact H0
  isplitl [H1]; · iexact H1
  isplitl [H2]; · iexact H2
  isplitl [H3]; · iexact H3
  unfold owns; iexists _; isplitr
  swap; · iexact H4
  ipureintro
  rw [kernelRun_val]
  exact read_whole_piece _ _ _ _

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.Kernel.GC

end
-- ==== Proof.K.Segs.lean ====
import proofs.«408867_j74234214744332_3_alg».proof.Proof.Gen.Kernel.Launch
import proofs.«408867_j74234214744332_3_alg».proof.Proof.Gen.Kernel.Skeleton
import proofs.«408867_j74234214744332_3_alg».proof.Proof.Gen.Kernel.Loops
import proofs.«408867_j74234214744332_3_alg».proof.Proof.Gen.Kernel.Points
import Idealize.ShloMosaic.Lib.Pipeline.FrameBody
import Idealize.ShloMosaic.Lib.Ring
import Idealize.ShloMosaic.Lib.Tactic
import proofs.«408867_j74234214744332_3_alg».proof.Proof.K.Oblig
import Idealize.ShloMosaic.Lib.Pipeline.Regions
import Idealize.ShloMosaic.Lib.Pipeline.Kit
import Idealize.ShloMosaic.Lib.Pipeline.Frame

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The launch's vocabulary, the thread states between @main's segments, and the three segments. -/

open Idealize.SL.BI (bigSepL bigSep_univ_eq_bigSepL bigSep_eq_bigSepL_of_eq)

variable (m : (ℓ : Loc nD τ sig) → Buf (Elt F) ℓ) (ρ : Dev nD → PrngReg)

/-! ## The vocabulary of the launch -/

/-- The one pipeline has no prefetched table. -/
abbrev adm : (p : Fin 1) → (pcfgs (F := F) p).Adm := fun p => (cfgs p).toPCfg_adm
/-- Its proof data, as the launch theorem indexes them. -/
def pdats (p : Fin 1) (c : Dev nD) : Pipeline.Dat τ (Elt F) Unit ℕ (UR sig nD τ) ℕ (Pipeline.pin (pcfgs (F := F)) adm p) c := dats m 0 c

/-- No core owes anything at launch: no level is assigned. -/
abbrev L₀ : GSem nD τ sig → Finset Unit := fun _ => ∅
abbrev lv₀ : GSem nD τ sig → Unit → ℕ := fun _ _ => 0

/-- A TensorCore buffer of core `c` held whole at contents `f`. -/
abbrev pt (c : Dev nD) (b : Ref sig .tc) (f : b.ty.Contents (Elt F)) : sProp 𝕄 := ((c : Thread nD τ).loc b) ↦{fullShare} f

/-- All eleven unscoped buffers of a core held at a valuation, one by one. -/
theorem heldAll_eq (c : Dev nD) (W : Valuation τ sig (Elt F)) :
    (StableHlo.held (c : Thread nD τ) (Pipeline.ucRefs τ sig) W : sProp 𝕄)
      = iprop(pt c main_arg0 (W main_arg0) ∗ pt c main_arg1 (W main_arg1) ∗ pt c main_v0 (W main_v0) ∗ pt c main_v1 (W main_v1)
          ∗ pt c main_v2 (W main_v2) ∗ pt c main_v3 (W main_v3) ∗ pt c main_cst (W main_cst) ∗ pt c main_v4 (W main_v4)
          ∗ pt c main_cst_0 (W main_cst_0) ∗ pt c main_v5 (W main_v5) ∗ pt c main_v6 (W main_v6)) := by
  unfold StableHlo.held
  rw [bigSep_eq_bigSepL_of_eq [Proc.devRef .tc main_arg0, Proc.devRef .tc main_arg1, Proc.devRef .tc main_v0, Proc.devRef .tc main_v1,
    Proc.devRef .tc main_v2, Proc.devRef .tc main_v3, Proc.devRef .tc main_cst, Proc.devRef .tc main_v4, Proc.devRef .tc main_cst_0,
    Proc.devRef .tc main_v5, Proc.devRef .tc main_v6] (by decide) (by decide)]
  rfl

/-- The pipeline's five windows' arrays, one by one: the feature array at its two halves, the two label arrays and the
    result array whole. -/
theorem arrays_eq' (c : Dev nD) (Fa : (w : Fin cfg0.W) → Buf (Elt F) ((cfg0.win w).arr.view.loc (c : Thread nD τ))) :
    ((pdats m 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2) ∗ (((c : Thread nD τ).loc main_v2) ↦{fullShare} Fa 3)
          ∗ (((c : Thread nD τ).loc main_v3) ↦{fullShare} Fa 4)) := by
  unfold pdats Pipeline.Dat.arrays
  rw [bigSep_W0]
  simp only [View.set_whole]
  rfl

/-! ## The thread states -/

/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

local notation "ℍ" => Pipeline.HostSeg (Name := ℕ) (U := UR sig nD τ) (pcfgs (F := F)) defs₀ Variants.none L₀ lv₀

/-- A stretch of host operations as a segment: over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) : ℍ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers when the kernel has returned: as it was entered, but for the result array, which holds what the eight
    write-backs left; and after the five host operations that follow. -/
abbrev V₂ (c : Dev nD) : Valuation τ sig (Elt F) :=
  Function.update (V₁ m c) (Proc.devRef .tc main_v3) ((dats m 0 c).arrAt 4 cfg0.N)
abbrev V₃ (c : Dev nD) : Valuation τ sig (Elt F) := StableHlo.after hostOps1 (V₂ m c)

theorem V₂_v3 (c : Dev nD) : V₂ m c (Proc.devRef .tc main_v3) = (dats m 0 c).arrAt 4 cfg0.N := Function.update_self ..
theorem V₂_of_ne (c : Dev nD) (b : Ref sig .tc) (h : (Proc.devRef .tc b : DevRef τ sig) ≠ Proc.devRef .tc main_v3) :
    V₂ m c (Proc.devRef .tc b) = V₁ m c (Proc.devRef .tc b) := Function.update_of_ne h ..

-- a library lemma stated over the pinned configuration unifies with the printed one only when unification may unfold
-- plain definitions in a metavariable's type
set_option backward.isDefEq.respectTransparency.types false in
/-- THE KERNEL REGION over the thread state: entered from every unscoped buffer as the three host operations left them,
    left with the result array rewritten. The feature array, which two windows are on, is split in two halves at the
    entry and joined again at the exit; the generator register goes into the region invariant and comes back; nothing is
    owed; the kernel has no semaphore of its own. -/
def reg0 : Pipeline.RegionSeg (pcfgs (F := F)) adm (pdats m) () defs₀ Variants.none L₀ lv₀ 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L₀ lv₀ 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none, heldAll_eq, arrays_eq', unscopedRest0_eq]
    iintro ⟨⟨⟨Ha0, Ha1, Hv0, Hv1, Hv2, Hv3, Hc, Hv4, Hc0, Hv5, Hv6⟩, Hp, HO⟩, -, -⟩
    ihave Hs := (pointsTo_share (PosShare.mem_left_op_right fullShare)).1 $$ Hv0
    icases Hs with ⟨Hl, Hr⟩
    imodintro
    isplitl [Hl Hr Hv1 Hv2 Hv3]
    · isplitl [Hl]; · iexact Hl
      isplitl [Hr]; · iexact Hr
      isplitl [Hv1]; · iexact Hv1
      isplitl [Hv2]; · iexact Hv2
      iexact Hv3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Hc]; · iexact Hc
    isplitl [Hv4]; · iexact Hv4
    isplitl [Hc0]; · iexact Hc0
    isplitl [Hv5]; · iexact Hv5
    iexact Hv6
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [heldAll_eq, arrays_eq', unscopedRest0_eq, V₂_v3,
      V₂_of_ne m c main_arg0 (by decide), V₂_of_ne m c main_arg1 (by decide), V₂_of_ne m c main_v0 (by decide),
      V₂_of_ne m c main_v1 (by decide), V₂_of_ne m c main_v2 (by decide), V₂_of_ne m c main_cst (by decide),
      V₂_of_ne m c main_v4 (by decide), V₂_of_ne m c main_cst_0 (by decide), V₂_of_ne m c main_v5 (by decide),
      V₂_of_ne m c main_v6 (by decide)]
    iintro ⟨⟨Hl, Hr, Hv1, Hv2, Hv3⟩, HO, HY, ⟨Ha0, Ha1, Hc, Hv4, Hc0, Hv5, Hv6⟩⟩
    imodintro
    isplitr [HY HO]
    · isplitl [Ha0]; · iexact Ha0
      isplitl [Ha1]; · iexact Ha1
      isplitl [Hl Hr]
      · iapply (pointsTo_share (PosShare.mem_left_op_right fullShare)).2
        isplitl [Hl]
        · rw [show (pdats m 0 c).arrAt 0 cfg0.N = V₁ m c (Proc.devRef .tc main_v0) from (dats m 0 c).arrAt_in 0 rfl _]; iexact Hl
        · rw [show (pdats m 0 c).arrAt 1 cfg0.N = V₁ m c (Proc.devRef .tc main_v0) from (dats m 0 c).arrAt_in 1 rfl _]; iexact Hr
      isplitl [Hv1]
      · rw [show (pdats m 0 c).arrAt 2 cfg0.N = V₁ m c (Proc.devRef .tc main_v1) from (dats m 0 c).arrAt_in 2 rfl _]; iexact Hv1
      isplitl [Hv2]
      · rw [show (pdats m 0 c).arrAt 3 cfg0.N = V₁ m c (Proc.devRef .tc main_v2) from (dats m 0 c).arrAt_in 3 rfl _]; iexact Hv2
      isplitl [Hv3]; · iexact Hv3
      isplitl [Hc]; · iexact Hc
      isplitl [Hv4]; · iexact Hv4
      isplitl [Hc0]; · iexact Hc0
      isplitl [Hv5]; · iexact Hv5
      iexact Hv6
    isplitl [HY]; · iexact HY
    unfold Pipeline.Dat.owesAt Pipeline.owesWithin
    icases HO with ⟨%W, -, HO⟩; iexists W; iexact HO

/-- @main's three segments: the host operations before the kernel, the kernel, the host operations after it. -/
abbrev segs : List (Pipeline.Seg (pcfgs (F := F)) adm (pdats m) () defs₀ Variants.none L₀ lv₀) :=
  [ .host (hseg hostOps0 hostOps0_sub hostOps0_fresh (V₀ m)),
    .region (reg0 m),
    .host (hseg hostOps1 hostOps1_sub hostOps1_fresh (V₂ m)) ]

/-- @main IS the run of the segments. -/
theorem main_run (c : Dev nD) : main (F := F) c = Pipeline.Seg.run (segs m) := (main_chain c).trans (by chain_rfl)

end Cert.Kernel.GC

end
-- ==== Proof.K.Launch.lean ====
import proofs.«408867_j74234214744332_3_alg».proof.Proof.Gen.Kernel.Launch
import proofs.«408867_j74234214744332_3_alg».proof.Proof.Gen.Kernel.Skeleton
import proofs.«408867_j74234214744332_3_alg».proof.Proof.Gen.Kernel.Loops
import proofs.«408867_j74234214744332_3_alg».proof.Proof.Gen.Kernel.Points
import Idealize.ShloMosaic.Lib.Pipeline.FrameBody
import Idealize.ShloMosaic.Lib.Ring
import Idealize.ShloMosaic.Lib.Tactic
import proofs.«408867_j74234214744332_3_alg».proof.Proof.K.Segs

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's dues: every unscoped buffer at the contents after the last host operation,
    the generator register at some state. -/
abbrev Tₙ (c : Dev nD) : sProp 𝕄 := iprop(StableHlo.held (c : Thread nD τ) (Pipeline.ucRefs τ sig) (V₃ m c) ∗ ∃ r, prngReg c r)

-- the launch theorem's implicit arguments are found by unifying its conclusion with this one, which takes unfolding
-- plain definitions in a metavariable's type
set_option backward.isDefEq.respectTransparency.types false in
/-- THE RUN, at any float instance: from any memory with zero counters every weakly fair execution of @main terminates,
    nothing faulting, and every final state has every unscoped buffer of every core at the contents the three host
    operations, the kernel's eight write-backs and the five host operations after it leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V₃ m c b) :=
  Pipeline.θ_run_regions_kit (pcfgs (F := F)) adm (pdats m) () cellOf_inj emb₁ defs₀ Variants.none L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (V₃ m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L₀ lv₀ fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V₃ m c b)
    (hfin := fun c s' => by
      iintro ⟨⟨Hh, -⟩, HSI⟩
      unfold StableHlo.held
      imodintro
      iapply (pointsTo_read_all (Pipeline.ucRefs τ sig) (fun b => (((c : Thread nD τ)).1, b)) (V₃ m c) s')
      isplitl [Hh] <;> iassumption)
    (hQ := fun s h c => h c)

end Cert.Kernel.GC

end
-- ==== Proof.K.TailVal.lean ====
import proofs.«408867_j74234214744332_3_alg».proof.Proof.Gen.Kernel.Launch
import proofs.«408867_j74234214744332_3_alg».proof.Proof.Gen.Kernel.Skeleton
import proofs.«408867_j74234214744332_3_alg».proof.Proof.Gen.Kernel.Loops
import proofs.«408867_j74234214744332_3_alg».proof.Proof.Gen.Kernel.Points
import Idealize.ShloMosaic.Lib.Pipeline.FrameBody
import Idealize.ShloMosaic.Lib.Ring
import Idealize.ShloMosaic.Lib.Tactic
import proofs.«408867_j74234214744332_3_alg».proof.Proof.K.Segs
import Idealize.ShloMosaic.Lib.StableHlo.Run

set_option maxRecDepth 16384

noncomputable section

namespace Cert.Kernel.GC

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! No host operation and no write-back touches the two argument arrays: at the end they hold what they held at launch. -/
theorem V₃_arg0 (c : Dev nD) : V₃ m c (Proc.devRef .tc main_arg0) = m ((c : Thread nD τ).loc main_arg0) := by
  -- none of the five operations after the kernel writes this array, nor does the kernel's write-back, nor the three before it
  show StableHlo.after hostOps1 (V₂ m c) (Proc.devRef .tc main_arg0) = _
  after_results
  rw [V₂_of_ne m c main_arg0 (by decide)]
  show StableHlo.after hostOps0 (fun b => m (c, b)) (Proc.devRef .tc main_arg0) = _
  after_results
theorem V₃_arg1 (c : Dev nD) : V₃ m c (Proc.devRef .tc main_arg1) = m ((c : Thread nD τ).loc main_arg1) := by
  -- none of the five operations after the kernel writes this array, nor does the kernel's write-back, nor the three before it
  show StableHlo.after hostOps1 (V₂ m c) (Proc.devRef .tc main_arg1) = _
  after_results
  rw [V₂_of_ne m c main_arg1 (by decide)]
  show StableHlo.after hostOps0 (fun b => m (c, b)) (Proc.devRef .tc main_arg1) = _
  after_results

end Cert.Kernel.GC

end
-- ==== Proof.KI.Pay.lean ====
/-
  The kernel body's arithmetic as one pure function of the four operand blocks, at any float instance.

  At a grid point the body keeps, per row of its 1024-row block, four running statistics in scratch memory — the running
  maximum M of the scores seen so far, the sums P (columns whose label equals the row's) and T (all columns) of
  exp (score − M), rescaled whenever M moves, and the sum D of the scores on the diagonal — resets them, walks the 8192
  columns in 16 chunks of 512 (one matrix product of the scaled query block with a chunk of the resident feature array per
  chunk), and stores 1 · (P − exp (D − M)) − (T − P).
-/
import proofs.«408867_j74234214744332_3_alg».proof.Proof.Gen.KernelIdeal.Skeleton
import Idealize.ShloMosaic.Lib.Pipeline.FrameBody

noncomputable section

namespace Cert.KernelIdeal.GC

open Cert.KernelIdeal Cert.KernelIdeal.Gen Idealize.ShloMosaic

variable {F : FTy → Type} [FloatOps F] [Named F]

/-- The four running statistics, one value per row of the block. -/
structure Stats (F : FTy → Type) where
  M : Vec F S1024x1 .f32
  P : Vec F S1024x1 .f32
  T : Vec F S1024x1 .f32
  D : Vec F S1024x1 .f32

/-- Before the first chunk: the maximum at −∞, the three sums at zero. -/
def stats0 : Stats F := ⟨k0_pay10, k0_pay11, k0_pay12, k0_pay13⟩

/-- Chunk `k` of the resident feature array: its rows 512·k … 512·k + 511. -/
abbrev kChunk (x2 : Vec F S8192x128 .bf16) (k : Fin k0_t1_loop.trips) : Vec F S512x128 .bf16 :=
  View.ld x2 (Rect.unit (s := S8192x128) (k0_off1 k) S512x128.size (k0_off1_inb k))

/-- Chunk `k` of the label row: its columns 512·k … 512·k + 511. -/
abbrev lChunk (x4 : Vec F S1x8192 .i32) (k : Fin k0_t1_loop.trips) : Vec F S1x512 .i32 :=
  View.ld x4 (Rect.unit (s := S1x8192) (k0_off2 k) S1x512.size (k0_off2_inb k))

/-- One chunk's update of the statistics, at grid coordinates `i`, from the query block `x1`, the feature array `x2`,
    the block's labels `x3` and the label row `x4`. -/
def statsStep (i : grid0.Coords) (x1 : Vec F S1024x128 .bf16) (x2 : Vec F S8192x128 .bf16) (x3 : Vec F S1024x1 .i32)
    (x4 : Vec F S1x8192 .i32) (k : Fin k0_t1_loop.trips) (s : Stats F) : Stats F where
  M := k0_pay20 (k0_pay3 (k0_pay14 x1) (kChunk x2 k) s.M)
  P := k0_pay17 (k0_pay6 (k0_pay14 x1) (k0_pay15 x3) (kChunk x2 k) (lChunk x4 k) s.M) (k0_pay9 (k0_pay14 x1) (kChunk x2 k) s.M s.M s.P)
  T := k0_pay18 (k0_pay4 (k0_pay14 x1) (kChunk x2 k) s.M s.M) (k0_pay7 (k0_pay14 x1) (kChunk x2 k) s.M) s.T
  D := k0_pay19 (k0_pay8 (k0_pay14 x1) (k0_pay16 i) 0#32 1#32 k (kChunk x2 k)) s.D

/-- The statistics after the first `k` chunks. -/
def statsAt (i : grid0.Coords) (x1 : Vec F S1024x128 .bf16) (x2 : Vec F S8192x128 .bf16) (x3 : Vec F S1024x1 .i32)
    (x4 : Vec F S1x8192 .i32) : ℕ → Stats F
  | 0 => stats0
  | k + 1 => if h : k < k0_t1_loop.trips then statsStep i x1 x2 x3 x4 ⟨k, h⟩ (statsAt i x1 x2 x3 x4 k) else statsAt i x1 x2 x3 x4 k

theorem statsAt_succ (i : grid0.Coords) (x1 : Vec F S1024x128 .bf16) (x2 : Vec F S8192x128 .bf16) (x3 : Vec F S1024x1 .i32)
    (x4 : Vec F S1x8192 .i32) (k : Fin k0_t1_loop.trips) :
    statsAt i x1 x2 x3 x4 (k.val + 1) = statsStep i x1 x2 x3 x4 k (statsAt i x1 x2 x3 x4 k.val) := by
  rw [statsAt]; exact dif_pos k.isLt

/-- What the body stores into its result block. -/
def outPay (i : grid0.Coords) (x1 : Vec F S1024x128 .bf16) (x2 : Vec F S8192x128 .bf16) (x3 : Vec F S1024x1 .i32)
    (x4 : Vec F S1x8192 .i32) : FVec F S1024x1 .f32 :=
  k0_pay1 (statsAt i x1 x2 x3 x4 k0_t1_loop.trips).D (statsAt i x1 x2 x3 x4 k0_t1_loop.trips).M
    (statsAt i x1 x2 x3 x4 k0_t1_loop.trips).P (statsAt i x1 x2 x3 x4 k0_t1_loop.trips).T (statsAt i x1 x2 x3 x4 k0_t1_loop.trips).P

end Cert.KernelIdeal.GC

end
-- ==== Proof.KI.Run.lean ====
/-
  The kernel function run once, on whole memrefs at any float instance: from the four operand buffers at their contents
  and the result and statistics buffers at anything, it ends with the operands untouched and the result buffer written by
  the one store the run finds (the witness), the statistics buffers at whatever the last chunk left.
-/
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Pay

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The kernel function on whole memrefs: the four operand buffers at their contents, the result buffer and the
    four running-statistics buffers at anything; it returns the operands as they were, the result buffer with the
    found pieces written, the four statistics buffers at some contents. -/
noncomputable def kernelRun (c : Dev nD) (i : grid0.Coords) (arg1 : Memref sig .tc .vmem S1024x128 .bf16) (harg1 : arg1.IsWhole) (arg2 : Memref sig .tc .vmem S8192x128 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (x1 : Vec F S1024x128 .bf16) (x2 : Vec F S8192x128 .bf16) (x3 : Vec F S1024x1 .i32) (x4 : Vec F S1x8192 .i32) :
    { L5 : List (View.Piece (Elt F) S1024x1 .f32) //
      ∀ (E : Set ℕ) (K : PUnit → sProp 𝕄),
        iprop(owns (c : Thread nD τ) arg1 fullShare x1 ∗ owns (c : Thread nD τ) arg2 fullShare x2
            ∗ owns (c : Thread nD τ) arg3 fullShare x3 ∗ owns (c : Thread nD τ) arg4 fullShare x4
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ (∃ d, owns (c : Thread nD τ) arg9 fullShare d)
            ∗ (iprop(owns (c : Thread nD τ) arg1 fullShare x1 ∗ owns (c : Thread nD τ) arg2 fullShare x2
                ∗ owns (c : Thread nD τ) arg3 fullShare x3 ∗ owns (c : Thread nD τ) arg4 fullShare x4
                ∗ (∃ f, arg5.view.loc (c : Thread nD τ) ↦[arg5.view.set]{fullShare} arg5.view.writes (Elt F) f L5)
                ∗ (∃ f, arg6.view.loc (c : Thread nD τ) ↦[arg6.view.set]{fullShare} f)
                ∗ (∃ f, arg7.view.loc (c : Thread nD τ) ↦[arg7.view.set]{fullShare} f)
                ∗ (∃ f, arg8.view.loc (c : Thread nD τ) ↦[arg8.view.set]{fullShare} f)
                ∗ (∃ f, arg9.view.loc (c : Thread nD τ) ↦[arg9.view.set]{fullShare} f)) -∗ K ⟨⟩))
          ⊢ wp frame (wpE (defs₀ (F := F)) Variants.none c none) E (cc0__graphcut_kernel i arg1 harg1 arg2 harg2 arg3 harg3 arg4 harg4 arg5 harg5 arg6 harg6 arg7 harg7 arg8 harg8 arg9 harg9) K } := by
  refine ⟨?_, fun E K => ?run⟩
  case run =>
    simp only [cc0__graphcut_kernel_eq_skeleton]; unfold cc0__graphcut_kernel_skel
    unfold owns
    iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf1
    obtain rfl := harg2.eq_unread hf2
    obtain rfl := harg3.eq_unread hf3
    obtain rfl := harg4.eq_unread hf4
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.GC

end
-- ==== Proof.KI.RunVal.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Run
import Idealize.ShloMosaic.Lib.Pipeline.Value

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The value of the kernel function's one store: the found pieces of the loop's trips read back as the pure recurrence. -/

/-- The whole-block rectangle of the result and statistics buffers, and of the query block. -/
abbrev rW : Rect S1024x1 := Rect.unit (s := S1024x1) ![0, 0] S1024x1.size inb_S1024x1_S1024x1_0_0
abbrev rQ : Rect S1024x128 := Rect.unit (s := S1024x128) ![0, 0] S1024x128.size inb_S1024x128_S1024x128_0_0

theorem hzW : (![0, 0] : Fin S1024x1.rank → ℕ) = fun _ => 0 := by funext a; fin_cases a <;> rfl
theorem hzQ : (![0, 0] : Fin S1024x128.rank → ℕ) = fun _ => 0 := by funext a; fin_cases a <;> rfl

theorem trips16 : k0_t1_loop.trips = 16 := by decide

/-- Whatever was written before, a store through the whole-shape rectangle at zero offsets leaves its payload. -/
theorem read_unit_zero_piece {κ : Kind} {sp : Space} {S : Shape} {e : EltTy} {off : Fin S.rank → Nat} (h : off = fun _ => 0)
    (inb : ∀ a, off a + S.size a ≤ S.size a) (v : View sig κ sp S e) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

theorem read_whole_piece {sp : Space} (v : View sig .tc sp S1024x1 .f32) (f : v.ty.Contents (Elt F)) (w : S1024x1.Idx → Elt F .f32)
    (L : List (View.Piece (Elt F) S1024x1 .f32)) :
    v.read (Elt F) (v.writes (Elt F) f ((⟨rW, w⟩ : View.Piece (Elt F) S1024x1 .f32) :: L)) = w :=
  read_unit_zero_piece hzW inb_S1024x1_S1024x1_0_0 v f w L

section

variable (𝒱 : Variants) (c : Dev nD) (bd : Option 𝒱.V) (i : grid0.Coords) (arg1 : Memref sig .tc .vmem S1024x128 .bf16) (harg1 : arg1.IsWhole) (arg2 : Memref sig .tc .vmem S8192x128 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)

/-- One trip's stores, as the run of the trip found them, in the payload names: each statistics buffer is stored whole,
    with the chunk's update of what the trip found there. -/
theorem tripL_eq (v16 : Vec F S1024x128 .bf16) (v22 : Vec F S1024x1 .i32) (X_arg2 : BufTy.Contents (Elt F) arg2.view.ty)
    (X_arg4 : BufTy.Contents (Elt F) arg4.view.ty) (k : Fin k0_t1_loop.trips)
    (f6 : BufTy.Contents (Elt F) arg6.view.ty) (f7 : BufTy.Contents (Elt F) arg7.view.ty)
    (f8 : BufTy.Contents (Elt F) arg8.view.ty) (f9 : BufTy.Contents (Elt F) arg9.view.ty) :
    tripL_k0_t1 (F := F) 𝒱 c bd i arg1 harg1 arg2 harg2 arg3 harg3 arg4 harg4 arg5 harg5 arg6 harg6 arg7 harg7 arg8 harg8 arg9 harg9 v16 v22 X_arg2 X_arg4 k f6 f7 f8 f9
      = ([⟨rW, k0_pay20 (k0_pay3 (k0_pay14 v16)
              (View.readAt (Elt F) arg2.view (Rect.unit (s := S8192x128) (k0_off1 k) S512x128.size (k0_off1_inb k)).toLoadRect X_arg2)
              (View.readAt (Elt F) arg6.view rW.toLoadRect f6))⟩],
         [⟨rW, k0_pay17 (k0_pay6 (k0_pay14 v16) (k0_pay15 v22)
              (View.readAt (Elt F) arg2.view (Rect.unit (s := S8192x128) (k0_off1 k) S512x128.size (k0_off1_inb k)).toLoadRect X_arg2)
              (View.readAt (Elt F) arg4.view (Rect.unit (s := S1x8192) (k0_off2 k) S1x512.size (k0_off2_inb k)).toLoadRect X_arg4)
              (View.readAt (Elt F) arg6.view rW.toLoadRect f6))
            (k0_pay9 (k0_pay14 v16)
              (View.readAt (Elt F) arg2.view (Rect.unit (s := S8192x128) (k0_off1 k) S512x128.size (k0_off1_inb k)).toLoadRect X_arg2)
              (View.readAt (Elt F) arg6.view rW.toLoadRect f6) (View.readAt (Elt F) arg6.view rW.toLoadRect f6)
              (View.readAt (Elt F) arg7.view rW.toLoadRect f7))⟩],
         [⟨rW, k0_pay18 (k0_pay4 (k0_pay14 v16)
              (View.readAt (Elt F) arg2.view (Rect.unit (s := S8192x128) (k0_off1 k) S512x128.size (k0_off1_inb k)).toLoadRect X_arg2)
              (View.readAt (Elt F) arg6.view rW.toLoadRect f6) (View.readAt (Elt F) arg6.view rW.toLoadRect f6))
            (k0_pay7 (k0_pay14 v16)
              (View.readAt (Elt F) arg2.view (Rect.unit (s := S8192x128) (k0_off1 k) S512x128.size (k0_off1_inb k)).toLoadRect X_arg2)
              (View.readAt (Elt F) arg6.view rW.toLoadRect f6))
            (View.readAt (Elt F) arg8.view rW.toLoadRect f8)⟩],
         [⟨rW, k0_pay19 (k0_pay8 (k0_pay14 v16) (k0_pay16 i) 0#32 1#32 k
              (View.readAt (Elt F) arg2.view (Rect.unit (s := S8192x128) (k0_off1 k) S512x128.size (k0_off1_inb k)).toLoadRect X_arg2))
            (View.readAt (Elt F) arg9.view rW.toLoadRect f9)⟩]) := by
  unfold tripL_k0_t1 trip_k0_t1
  dsimp only
  sl_unfold_run_names
  unfold k0_pay9 k0_pay8 k0_pay7 k0_pay6 k0_pay5 k0_pay4 k0_pay3 k0_pay2
  rfl

end

section

variable (c : Dev nD) (i : grid0.Coords) (arg1 : Memref sig .tc .vmem S1024x128 .bf16) (harg1 : arg1.IsWhole) (arg2 : Memref sig .tc .vmem S8192x128 .bf16) (harg2 : arg2.IsWhole) (arg3 : Memref sig .tc .vmem S1024x1 .i32) (harg3 : arg3.IsWhole) (arg4 : Memref sig .tc .vmem S1x8192 .i32) (harg4 : arg4.IsWhole) (arg5 : Memref sig .tc .vmem S1024x1 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
  (x1 : Vec F S1024x128 .bf16) (x2 : Vec F S8192x128 .bf16) (x3 : Vec F S1024x1 .i32) (x4 : Vec F S1x8192 .i32)

/-- After the resets and the first `n` trips each statistics buffer reads the pure recurrence's value: by induction on
    the trips, each trip storing whole blocks computed from what the trip before left. -/
theorem pb_read (n : ℕ) (hn : n ≤ k0_t1_loop.trips) :
    arg6.view.read (Elt F) (arg6.view.writes (Elt F) (arg6.view.writes (Elt F) arg6.view.junk [⟨rW, k0_pay10⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).1)
        = (statsAt i x1 x2 x3 x4 n).M
      ∧ arg7.view.read (Elt F) (arg7.view.writes (Elt F) (arg7.view.writes (Elt F) arg7.view.junk [⟨rW, k0_pay11⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).2.1)
        = (statsAt i x1 x2 x3 x4 n).P
      ∧ arg8.view.read (Elt F) (arg8.view.writes (Elt F) (arg8.view.writes (Elt F) arg8.view.junk [⟨rW, k0_pay12⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).2.2.1)
        = (statsAt i x1 x2 x3 x4 n).T
      ∧ arg9.view.read (Elt F) (arg9.view.writes (Elt F) (arg9.view.writes (Elt F) arg9.view.junk [⟨rW, k0_pay13⟩]) (pb_k0_t1 (F := F) Variants.none c none i arg1 harg1 arg2 harg2 arg3 harg3 arg4 harg4 arg5 harg5 arg6 harg6 arg7 harg7 arg8 harg8 arg9 harg9 x1 x3 (harg2.unread x2) (harg4.unread x4)
        (arg6.view.writes (Elt F) arg6.view.junk [⟨rW, k0_pay10⟩]) (arg7.view.writes (Elt F) arg7.view.junk [⟨rW, k0_pay11⟩])
        (arg8.view.writes (Elt F) arg8.view.junk [⟨rW, k0_pay12⟩]) (arg9.view.writes (Elt F) arg9.view.junk [⟨rW, k0_pay13⟩]) n).2.2.2)
        = (statsAt i x1 x2 x3 x4 n).D := by
  induction n with
  | zero =>
    rw [pb_k0_t1.eq_1, statsAt.eq_1]
    dsimp only [View.writes_nil, stats0]
    exact ⟨read_whole_piece _ _ _ _, read_whole_piece _ _ _ _, read_whole_piece _ _ _ _, read_whole_piece _ _ _ _⟩
  | succ n ih =>
    have hlt : n < k0_t1_loop.trips := hn
    obtain ⟨h6, h7, h8, h9⟩ := ih (Nat.le_of_lt hlt)
    rw [pb_k0_t1_succ (F := F) Variants.none c none i arg1 harg1 arg2 harg2 arg3 harg3 arg4 harg4 arg5 harg5 arg6 harg6 arg7 harg7 arg8 harg8 arg9 harg9 _ _ _ _ _ _ _ _ ⟨n, hlt⟩, tripL_eq, statsAt_succ i x1 x2 x3 x4 ⟨n, hlt⟩]
    dsimp only
    simp only [List.singleton_append, read_whole_piece, View.readAt_eq_ld, h6, h7, h8, h9,
      harg2.read_unread, harg4.read_unread, View.ld_unit_zero (S := S1024x1) hzW]
    exact ⟨rfl, rfl, rfl, rfl⟩

/-- The one store the run of the kernel function finds is of the pure recurrence's result. -/
theorem kernelRun_val : (kernelRun c i arg1 harg1 arg2 harg2 arg3 harg3 arg4 harg4 arg5 harg5 arg6 harg6 arg7 harg7 arg8 harg8 arg9 harg9 x1 x2 x3 x4).1 = [⟨rW, outPay i x1 x2 x3 x4⟩] := by
  obtain ⟨h6, h7, h8, h9⟩ := pb_read c i arg1 harg1 arg2 harg2 arg3 harg3 arg4 harg4 arg5 harg5 arg6 harg6 arg7 harg7 arg8 harg8 arg9 harg9 x1 x2 x3 x4 (Scf.trips k0_t1_loop.lb k0_t1_loop.ub k0_t1_loop.st) (le_of_eq rfl)
  unfold kernelRun
  dsimp only
  sl_unfold_run_names
  simp only [View.readAt_eq_ld, harg1.read_unread, harg3.read_unread, View.ld_unit_zero (S := S1024x1) hzW,
    View.ld_unit_zero (S := S1024x128) hzQ, View.writes_append, h6, h7, h8, h9]
  rfl

end

end Cert.KernelIdeal.GC

end
-- ==== Proof.KI.Data.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.RunVal
import Idealize.ShloMosaic.Lib.Pipeline.Frame
import Idealize.ShloMosaic.Lib.Pipeline.Value

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays when the kernel is entered -/

/-- Core `c`'s buffers at launch, as a valuation, and after the three host operations before the kernel (the features in
    the narrower format, the labels as a column and as a row). -/
abbrev V₀ (c : Dev nD) : Valuation τ sig (Elt F) := fun b => m ((c : Dev nD), b)
abbrev V₁ (c : Dev nD) : Valuation τ sig (Elt F) := StableHlo.after hostOps0 (V₀ m c)

/-- The same, read at a TensorCore reference. -/
abbrev VA (c : Dev nD) (b : Ref sig .tc) : Buf (Elt F) ((c : Thread nD τ).loc b) := V₁ m c (Proc.devRef .tc b)

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (VA m c (Pipeline.arrRef spec0 w))

/-! ## The pipeline's proof data -/

/-- After the body at point `t` each operand's buffer holds its block, untouched, and the result's buffer the row values
    the body computes from the four operand blocks. The two windows on the feature array each hold half of it. -/
def dats (_ : Fin 1) (c : Dev nD) : Dat τ (Elt F) Unit ℕ (UR sig nD τ) ℕ cfg0 c where
  A w := VA m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outPay (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = VA m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outPay (grid0.coords t) (iblk m c 0 t) (iblk m c 1 t) (iblk m c 2 t) (iblk m c 3 t) := by
  dsimp only [dats]

/-- Each operand's current buffer holds its block at every point, fetched there or not: the body leaves it in place and an
    unfetched window's block index has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

end Cert.KernelIdeal.GC

end
-- ==== Proof.KI.Oblig.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Data

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The body obligation of the pipeline: at every grid point the kernel function's run, on the blocks the pipeline hands it. -/

variable (m : (ℓ : Loc nD τ sig) → Buf (Elt F) ℓ) (ρ : Dev nD → PrngReg)

/-- Each window's current staging memref at point `t`, as the pipeline passes it to the body, and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8192 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)

/-- What the body is called with at point `t`: the region invariant, the core's dues, each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- And what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point: the operands' buffers hold their blocks, the four statistics buffers are the invariant's
    scratch at anything; the run of the kernel function applies, and its one store is the row values. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4,
    show (dats m 0 c).Φ t.castSucc = Pipeline.ΦA spec0 c from rfl]
  unfold Pipeline.ΦA
  rw [scopedRest0_eq]
  iintro ⟨⟨⟨⟨%s0, S0⟩, ⟨%s1, S1⟩, ⟨%s2, S2⟩, ⟨%s3, S3⟩⟩, Hp⟩, Ho, ⟨%d0, H0⟩, ⟨%d1, H1⟩, ⟨%d2, H2⟩, ⟨%d3, H3⟩, ⟨%d4, H4⟩⟩
  iapply ((kernelRun c (grid0.coords t) (ms0_0 t) (hs0_0 t) (ms0_1 t) (hs0_1 t) (ms0_2 t) (hs0_2 t) (ms0_3 t) (hs0_3 t) (ms0_4 t) (hs0_4 t)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [S0]; · iexists s0; rw [owns_whole]; iexact S0
  isplitl [S1]; · iexists s1; rw [owns_whole]; iexact S1
  isplitl [S2]; · iexists s2; rw [owns_whole]; iexact S2
  isplitl [S3]; · iexists s3; rw [owns_whole]; iexact S3
  iintro ⟨H0, H1, H2, H3, ⟨%e4, H4⟩, ⟨%e6, S0⟩, ⟨%e7, S1⟩, ⟨%e8, S2⟩, ⟨%e9, S3⟩⟩
  isplitl [S0 S1 S2 S3 Hp]
  · isplitr [Hp]
    · isplitl [S0]; · iexists e6; simp only [View.set_whole]; iexact S0
      isplitl [S1]; · iexists e7; simp only [View.set_whole]; iexact S1
      isplitl [S2]; · iexists e8; simp only [View.set_whole]; iexact S2
      iexists e9; simp only [View.set_whole]; iexact S3
    · iexact Hp
  isplitl [Ho]; · iexact Ho
  isplitl [H0]; · iexact H0
  isplitl [H1]; · iexact H1
  isplitl [H2]; · iexact H2
  isplitl [H3]; · iexact H3
  unfold owns; iexists _; isplitr
  swap; · iexact H4
  ipureintro
  rw [kernelRun_val]
  exact read_whole_piece _ _ _ _

/-- The library's body obligation, at every point. -/
theorem body_obligation (c : Dev nD) :
    BodyObligation (dats (F := F) m 0 c) (defs₀ (F := F)) Variants.none () Set.univ := fun t => by
  rw [bigSep_W0, bigSep_W0]
  exact sound_body m c t

end Cert.KernelIdeal.GC

end
-- ==== Proof.KI.Segs.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Oblig
import Idealize.ShloMosaic.Lib.Pipeline.Regions
import Idealize.ShloMosaic.Lib.Pipeline.Kit
import Idealize.ShloMosaic.Lib.Pipeline.Frame

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! The launch's vocabulary, the thread states between @main's segments, and the three segments. -/

open Idealize.SL.BI (bigSepL bigSep_univ_eq_bigSepL bigSep_eq_bigSepL_of_eq)

variable (m : (ℓ : Loc nD τ sig) → Buf (Elt F) ℓ) (ρ : Dev nD → PrngReg)

/-! ## The vocabulary of the launch -/

/-- The one pipeline has no prefetched table. -/
abbrev adm : (p : Fin 1) → (pcfgs (F := F) p).Adm := fun p => (cfgs p).toPCfg_adm
/-- Its proof data, as the launch theorem indexes them. -/
def pdats (p : Fin 1) (c : Dev nD) : Pipeline.Dat τ (Elt F) Unit ℕ (UR sig nD τ) ℕ (Pipeline.pin (pcfgs (F := F)) adm p) c := dats m 0 c

/-- No core owes anything at launch: no level is assigned. -/
abbrev L₀ : GSem nD τ sig → Finset Unit := fun _ => ∅
abbrev lv₀ : GSem nD τ sig → Unit → ℕ := fun _ _ => 0

/-- A TensorCore buffer of core `c` held whole at contents `f`. -/
abbrev pt (c : Dev nD) (b : Ref sig .tc) (f : b.ty.Contents (Elt F)) : sProp 𝕄 := ((c : Thread nD τ).loc b) ↦{fullShare} f

/-- All eleven unscoped buffers of a core held at a valuation, one by one. -/
theorem heldAll_eq (c : Dev nD) (W : Valuation τ sig (Elt F)) :
    (StableHlo.held (c : Thread nD τ) (Pipeline.ucRefs τ sig) W : sProp 𝕄)
      = iprop(pt c main_arg0 (W main_arg0) ∗ pt c main_arg1 (W main_arg1) ∗ pt c main_v0 (W main_v0) ∗ pt c main_v1 (W main_v1)
          ∗ pt c main_v2 (W main_v2) ∗ pt c main_v3 (W main_v3) ∗ pt c main_cst (W main_cst) ∗ pt c main_v4 (W main_v4)
          ∗ pt c main_cst_0 (W main_cst_0) ∗ pt c main_v5 (W main_v5) ∗ pt c main_v6 (W main_v6)) := by
  unfold StableHlo.held
  rw [bigSep_eq_bigSepL_of_eq [Proc.devRef .tc main_arg0, Proc.devRef .tc main_arg1, Proc.devRef .tc main_v0, Proc.devRef .tc main_v1,
    Proc.devRef .tc main_v2, Proc.devRef .tc main_v3, Proc.devRef .tc main_cst, Proc.devRef .tc main_v4, Proc.devRef .tc main_cst_0,
    Proc.devRef .tc main_v5, Proc.devRef .tc main_v6] (by decide) (by decide)]
  rfl

/-- The pipeline's five windows' arrays, one by one: the feature array at its two halves, the two label arrays and the
    result array whole. -/
theorem arrays_eq' (c : Dev nD) (Fa : (w : Fin cfg0.W) → Buf (Elt F) ((cfg0.win w).arr.view.loc (c : Thread nD τ))) :
    ((pdats m 0 c).arrays Fa : sProp 𝕄)
      = iprop((((c : Thread nD τ).loc main_v0) ↦{fullShare.left} Fa 0) ∗ (((c : Thread nD τ).loc main_v0) ↦{fullShare.right} Fa 1)
          ∗ (((c : Thread nD τ).loc main_v1) ↦{fullShare} Fa 2) ∗ (((c : Thread nD τ).loc main_v2) ↦{fullShare} Fa 3)
          ∗ (((c : Thread nD τ).loc main_v3) ↦{fullShare} Fa 4)) := by
  unfold pdats Pipeline.Dat.arrays
  rw [bigSep_W0]
  simp only [View.set_whole]
  rfl

/-! ## The thread states -/

/-- What rides beside the buffers through every segment: the core's generator register at some state and the core
    owing nothing. -/
abbrev R (c : Dev nD) : sProp 𝕄 := iprop((∃ r, prngReg c r) ∗ ∃ W, owes (c : Thread nD τ) (0 : CellTallies nD τ sig Unit) W)

local notation "ℍ" => Pipeline.HostSeg (Name := ℕ) (U := UR sig nD τ) (pcfgs (F := F)) defs₀ Variants.none L₀ lv₀

/-- A stretch of host operations as a segment: over every unscoped buffer, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) : ℍ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The buffers when the kernel has returned: as it was entered, but for the result array, which holds what the eight
    write-backs left; and after the five host operations that follow. -/
abbrev V₂ (c : Dev nD) : Valuation τ sig (Elt F) :=
  Function.update (V₁ m c) (Proc.devRef .tc main_v3) ((dats m 0 c).arrAt 4 cfg0.N)
abbrev V₃ (c : Dev nD) : Valuation τ sig (Elt F) := StableHlo.after hostOps1 (V₂ m c)

theorem V₂_v3 (c : Dev nD) : V₂ m c (Proc.devRef .tc main_v3) = (dats m 0 c).arrAt 4 cfg0.N := Function.update_self ..
theorem V₂_of_ne (c : Dev nD) (b : Ref sig .tc) (h : (Proc.devRef .tc b : DevRef τ sig) ≠ Proc.devRef .tc main_v3) :
    V₂ m c (Proc.devRef .tc b) = V₁ m c (Proc.devRef .tc b) := Function.update_of_ne h ..

-- a library lemma stated over the pinned configuration unifies with the printed one only when unification may unfold
-- plain definitions in a metavariable's type
set_option backward.isDefEq.respectTransparency.types false in
/-- THE KERNEL REGION over the thread state: entered from every unscoped buffer as the three host operations left them,
    left with the result array rewritten. The feature array, which two windows are on, is split in two halves at the
    entry and joined again at the exit; the generator register goes into the region invariant and comes back; nothing is
    owed; the kernel has no semaphore of its own. -/
def reg0 : Pipeline.RegionSeg (pcfgs (F := F)) adm (pdats m) () defs₀ Variants.none L₀ lv₀ 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L₀ lv₀ 0 fun _ _ => rfl
  pre c := iprop(StableHlo.held (c : Thread nD τ) (Pipeline.ucRefs τ sig) (V₁ m c) ∗ R c)
  post c := iprop(StableHlo.held (c : Thread nD τ) (Pipeline.ucRefs τ sig) (V₂ m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none, heldAll_eq, arrays_eq', unscopedRest0_eq]
    iintro ⟨⟨⟨Ha0, Ha1, Hv0, Hv1, Hv2, Hv3, Hc, Hv4, Hc0, Hv5, Hv6⟩, Hp, HO⟩, -, -⟩
    ihave Hs := (pointsTo_share (PosShare.mem_left_op_right fullShare)).1 $$ Hv0
    icases Hs with ⟨Hl, Hr⟩
    imodintro
    isplitl [Hl Hr Hv1 Hv2 Hv3]
    · isplitl [Hl]; · iexact Hl
      isplitl [Hr]; · iexact Hr
      isplitl [Hv1]; · iexact Hv1
      isplitl [Hv2]; · iexact Hv2
      iexact Hv3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitl [Ha0]; · iexact Ha0
    isplitl [Ha1]; · iexact Ha1
    isplitl [Hc]; · iexact Hc
    isplitl [Hv4]; · iexact Hv4
    isplitl [Hc0]; · iexact Hc0
    isplitl [Hv5]; · iexact Hv5
    iexact Hv6
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [heldAll_eq, arrays_eq', unscopedRest0_eq, V₂_v3,
      V₂_of_ne m c main_arg0 (by decide), V₂_of_ne m c main_arg1 (by decide), V₂_of_ne m c main_v0 (by decide),
      V₂_of_ne m c main_v1 (by decide), V₂_of_ne m c main_v2 (by decide), V₂_of_ne m c main_cst (by decide),
      V₂_of_ne m c main_v4 (by decide), V₂_of_ne m c main_cst_0 (by decide), V₂_of_ne m c main_v5 (by decide),
      V₂_of_ne m c main_v6 (by decide)]
    iintro ⟨⟨Hl, Hr, Hv1, Hv2, Hv3⟩, HO, HY, ⟨Ha0, Ha1, Hc, Hv4, Hc0, Hv5, Hv6⟩⟩
    imodintro
    isplitr [HY HO]
    · isplitl [Ha0]; · iexact Ha0
      isplitl [Ha1]; · iexact Ha1
      isplitl [Hl Hr]
      · iapply (pointsTo_share (PosShare.mem_left_op_right fullShare)).2
        isplitl [Hl]
        · rw [show (pdats m 0 c).arrAt 0 cfg0.N = V₁ m c (Proc.devRef .tc main_v0) from (dats m 0 c).arrAt_in 0 rfl _]; iexact Hl
        · rw [show (pdats m 0 c).arrAt 1 cfg0.N = V₁ m c (Proc.devRef .tc main_v0) from (dats m 0 c).arrAt_in 1 rfl _]; iexact Hr
      isplitl [Hv1]
      · rw [show (pdats m 0 c).arrAt 2 cfg0.N = V₁ m c (Proc.devRef .tc main_v1) from (dats m 0 c).arrAt_in 2 rfl _]; iexact Hv1
      isplitl [Hv2]
      · rw [show (pdats m 0 c).arrAt 3 cfg0.N = V₁ m c (Proc.devRef .tc main_v2) from (dats m 0 c).arrAt_in 3 rfl _]; iexact Hv2
      isplitl [Hv3]; · iexact Hv3
      isplitl [Hc]; · iexact Hc
      isplitl [Hv4]; · iexact Hv4
      isplitl [Hc0]; · iexact Hc0
      isplitl [Hv5]; · iexact Hv5
      iexact Hv6
    isplitl [HY]; · iexact HY
    unfold Pipeline.Dat.owesAt Pipeline.owesWithin
    icases HO with ⟨%W, -, HO⟩; iexists W; iexact HO

/-- @main's three segments: the host operations before the kernel, the kernel, the host operations after it. -/
abbrev segs : List (Pipeline.Seg (pcfgs (F := F)) adm (pdats m) () defs₀ Variants.none L₀ lv₀) :=
  [ .host (hseg hostOps0 hostOps0_sub hostOps0_fresh (V₀ m)),
    .region (reg0 m),
    .host (hseg hostOps1 hostOps1_sub hostOps1_fresh (V₂ m)) ]

/-- @main IS the run of the segments. -/
theorem main_run (c : Dev nD) : main (F := F) c = Pipeline.Seg.run (segs m) := (main_chain c).trans (by chain_rfl)

end Cert.KernelIdeal.GC

end
-- ==== Proof.KI.Launch.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Segs

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the core's dues: every unscoped buffer at the contents after the last host operation,
    the generator register at some state. -/
abbrev Tₙ (c : Dev nD) : sProp 𝕄 := iprop(StableHlo.held (c : Thread nD τ) (Pipeline.ucRefs τ sig) (V₃ m c) ∗ ∃ r, prngReg c r)

-- the launch theorem's implicit arguments are found by unifying its conclusion with this one, which takes unfolding
-- plain definitions in a metavariable's type
set_option backward.isDefEq.respectTransparency.types false in
/-- THE RUN, at any float instance: from any memory with zero counters every weakly fair execution of @main terminates,
    nothing faulting, and every final state has every unscoped buffer of every core at the contents the three host
    operations, the kernel's eight write-backs and the five host operations after it leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = V₃ m c b) :=
  Pipeline.θ_run_regions_kit (pcfgs (F := F)) adm (pdats m) () cellOf_inj emb₁ defs₀ Variants.none L₀ lv₀ m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop(StableHlo.held (c : Thread nD τ) (Pipeline.ucRefs τ sig) (V₃ m c) ∗ R c)
        ⊢ iprop(Tₙ m c ∗ ∃ W, owes (c : Thread nD τ) (0 : CellTallies nD τ sig Unit) W)
      iintro ⟨Hh, Hp, HO⟩
      isplitr [HO]
      · isplitl [Hh]; · iexact Hh
        iexact Hp
      · iexact HO⟩)
    (hinit := by
      refine Pipeline.initEach L₀ lv₀ fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V₃ m c b)
    (hfin := fun c s' => by
      iintro ⟨⟨Hh, -⟩, HSI⟩
      unfold StableHlo.held
      imodintro
      iapply (pointsTo_read_all (Pipeline.ucRefs τ sig) (fun b => (((c : Thread nD τ)).1, b)) (V₃ m c) s')
      isplitl [Hh] <;> iassumption)
    (hQ := fun s h c => h c)

end Cert.KernelIdeal.GC

end
-- ==== Proof.KI.TailVal.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Segs
import Idealize.ShloMosaic.Lib.StableHlo.Run

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! No host operation and no write-back touches the two argument arrays: at the end they hold what they held at launch. -/
theorem V₃_arg0 (c : Dev nD) : V₃ m c (Proc.devRef .tc main_arg0) = m ((c : Thread nD τ).loc main_arg0) := by
  -- none of the five operations after the kernel writes this array, nor does the kernel's write-back, nor the three before it
  show StableHlo.after hostOps1 (V₂ m c) (Proc.devRef .tc main_arg0) = _
  after_results
  rw [V₂_of_ne m c main_arg0 (by decide)]
  show StableHlo.after hostOps0 (fun b => m (c, b)) (Proc.devRef .tc main_arg0) = _
  after_results
theorem V₃_arg1 (c : Dev nD) : V₃ m c (Proc.devRef .tc main_arg1) = m ((c : Thread nD τ).loc main_arg1) := by
  -- none of the five operations after the kernel writes this array, nor does the kernel's write-back, nor the three before it
  show StableHlo.after hostOps1 (V₂ m c) (Proc.devRef .tc main_arg1) = _
  after_results
  rw [V₂_of_ne m c main_arg1 (by decide)]
  show StableHlo.after hostOps0 (fun b => m (c, b)) (Proc.devRef .tc main_arg1) = _
  after_results

end Cert.KernelIdeal.GC

end
-- ==== Proof.GC.Spec.lean ====
/-
  The mathematics of the claim, with no program in sight.

  A row of similarity scores s_j (j over the 8192 columns), a flag per column saying whether the column's label equals the
  row's, and a flag saying whether the column is the row's own (the diagonal). With e_j = exp (s_j − max_j s_j):

  * the reference's value of the row is  1 · Σ_j e_j · [same_j ∧ ¬diag_j]  −  Σ_j e_j · [¬same_j ∧ ¬diag_j]  (refRow);
  * the kernel walks the columns in 16 chunks of 512, keeping a running maximum m, the sums p (same-label columns) and t
    (all columns) of exponentials taken against the running maximum and rescaled by exp (m_old − m_new) whenever the
    maximum moves, and the sum d of the scores on the diagonal; at the end it returns
    1 · (p − exp (d − m)) − (t − p)  (kerRow).

  Both are stated on the extended reals, as the idealized programs compute them (the running maximum starts at −∞).
  For real scores the two agree (Math.lean).
-/
import Idealize.ShloMosaic.PureOps.Ideal

noncomputable section

namespace Cert.GC

open Idealize.ShloMosaic

/-- The scale the kernel multiplies the query rows by: the reciprocal of the reference's divisor, the f32 nearest 0.2. -/
def cT : ℝ := 67108864 / 13421773

/-- The reference's divisor: the f32 nearest 0.2, exactly. -/
def dT : ℝ := 13421773 / 67108864

/-- Column `l` of chunk `k`: column 512·k + l of the row. -/
def chunkIdx (k : Fin 16) (l : Fin 512) : Fin 8192 := ⟨512 * k.val + l.val, by have := k.isLt; have := l.isLt; omega⟩

/-- The score of rows i and j as the KERNEL forms it: the query row scaled first, then the dot product. -/
def scoreK (x : Fin 8192 → Fin 128 → EReal) (i j : Fin 8192) : EReal := ∑ k : Fin 128, (x i k * (cT : EReal)) * x j k

/-- The score as the REFERENCE forms it: the dot product, then the division. -/
def scoreR (x : Fin 8192 → Fin 128 → EReal) (i j : Fin 8192) : EReal := Ideal.div (∑ k : Fin 128, x i k * x j k) (dT : EReal)

/-- A Boolean mask as the float the reference multiplies by. -/
def b2e (b : Bool) : EReal := ((if b then 1 else 0 : ℝ) : EReal)

/-- The maximum of finitely many extended reals, from −∞. -/
def emax {n : ℕ} (s : Fin n → EReal) : EReal := (Finset.univ : Finset (Fin n)).fold max ⊥ s

/-- The reference's value of one row: exponentials against the row maximum, summed over the positive columns, less
    the same over the negative columns (each sum from the reduce's initial 0, the first scaled by the literal 1). -/
def refRow (s : Fin 8192 → EReal) (pos neg : Fin 8192 → Bool) : EReal :=
  1 * (0 + ∑ j : Fin 8192, Ideal.exp (s j - emax s) * b2e (pos j)) - (0 + ∑ j : Fin 8192, Ideal.exp (s j - emax s) * b2e (neg j))

/-- The kernel's four running statistics of one row. -/
structure RowSt where
  m : EReal
  p : EReal
  t : EReal
  d : EReal

/-- Before the first chunk. -/
def RowSt.init : RowSt := ⟨⊥, 0, 0, 0⟩

/-- One chunk of `n` columns with scores `S`, same-label flags and diagonal flags. -/
def RowSt.step {n : ℕ} (S : Fin n → EReal) (same diag : Fin n → Bool) (r : RowSt) : RowSt :=
  { m := max r.m (emax S)
    p := Ideal.exp (r.m - max r.m (emax S)) * r.p + ∑ j : Fin n, (if same j then Ideal.exp (S j - max r.m (emax S)) else 0)
    t := Ideal.exp (r.m - max r.m (emax S)) * r.t + ∑ j : Fin n, Ideal.exp (S j - max r.m (emax S))
    d := r.d + ∑ j : Fin n, (if diag j then S j else 0) }

/-- What the kernel stores for the row at the end. -/
def RowSt.out (r : RowSt) : EReal := 1 * (r.p - Ideal.exp (r.d - r.m)) - (r.t - r.p)

/-- The state after the first `k` chunks of a row of 8192 scores. -/
def rowAt (s : Fin 8192 → EReal) (same diag : Fin 8192 → Bool) : ℕ → RowSt
  | 0 => RowSt.init
  | k + 1 => if h : k < 16 then
      (rowAt s same diag k).step (fun l : Fin 512 => s (chunkIdx ⟨k, h⟩ l)) (fun l => same (chunkIdx ⟨k, h⟩ l)) (fun l => diag (chunkIdx ⟨k, h⟩ l))
    else rowAt s same diag k

/-- Minus the mean of the 8192 row values, as both programs' last three host operations form it: the sum from the
    reduce's initial 0, the quotient by 8192, the negation. -/
def negMean (f : Fin 8192 → EReal) : EReal := -(Ideal.div (0 + ∑ r : Fin 8192, f r) ((8192 : ℝ) : EReal))

/-- The kernel's value of one row. -/
def kerRow (s : Fin 8192 → EReal) (same diag : Fin 8192 → Bool) : EReal := (rowAt s same diag 16).out

end Cert.GC

end
-- ==== Proof.KI.Tail.lean ====
import proofs.«408867_j74234214744332_3_alg».proof.Proof.KI.Pay
import proofs.«408867_j74234214744332_3_alg».proof.Proof.GC.Spec
import proofs.«408867_j74234214744332_3_alg».proof.Proof.Gen.KernelIdeal.Launch
import Idealize.ShloMosaic.Lib.ValueIdx
import Idealize.ShloMosaic.Lib.Pipeline.Value
import Idealize.ShloMosaic.PureOps.Ideal.Laws
import Mathlib.Algebra.BigOperators.Fin

noncomputable section

namespace Cert.KernelIdeal.GC

open Cert.KernelIdeal Cert.KernelIdeal.Gen Cert.GC Idealize.ShloMosaic Idealize.ShloMosaic.ValueIdx

variable {F : FTy → Type} [FloatOps F] [Named F]

/-- What @main's five operations after the kernel make of the kernel's result array: the sum of its entries, divided by
    8192, negated. -/
def tailFn (X : (⟨S8192x1, .f32⟩ : BufTy).Contents (Elt F)) : (⟨S_, .f32⟩ : BufTy).Contents (Elt F) :=
  Host.negf (Host.divf (Host.reduceAdd X (constant S_ .f32 0x00000000#32) reducesTo_S8192x1_S_d0_1 h_S_) (constant S_ .f32 0x46000000#32))

/-- The divisor's word is 8192. -/
private theorem ofBits_8192 : Ideal.ofBits .f32 0x46000000#32 = ((8192 : ℝ) : EReal) := by
  simp [Ideal.ofBits, Ideal.ieee, -EReal.coe_mul]
  norm_num

/-- At the ideal values it is minus the mean of the 8192 entries. -/
theorem tailFn_ideal (X : (⟨S8192x1, .f32⟩ : BufTy).Contents (Elt Ideal)) (i : S_.Idx) :
    tailFn (F := Ideal) X i = negMean (fun r => X (ix2 r 0)) := by
  -- the sum into the scalar shape is the initial 0 plus the sum over every entry; the entries are (r, 0)
  have hsum : Host.reduceAdd (F := Ideal) X (constant S_ .f32 0x00000000#32) reducesTo_S8192x1_S_d0_1 h_S_ i
      = 0 + ∑ r : Fin 8192, X (ix2 r 0) := by
    simp only [Host.reduceAdd, Ideal.hostReduceAdd_def]
    rw [Ideal.hostReduceAdd_total reducesTo_S8192x1_S_d0_1 (fun b => b.elim0) X _ i, constant_apply,
      Ideal.ofBits_zero_f32, sum_idx2]
    exact congrArg (0 + ·) (Finset.sum_congr rfl fun r _ => Fin.sum_univ_one _)
  show -(Ideal.div (Host.reduceAdd (F := Ideal) X (constant S_ .f32 0x00000000#32) reducesTo_S8192x1_S_d0_1 h_S_ i)
      (Ideal.ofBits .f32 0x46000000#32)) = _
  rw [hsum, ofBits_8192]
  rfl

end Cert.KernelIdeal.GC

end
-- ==== Proof.KI.TailV6.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Segs
import proofs.«408867_j74234214744332_3_alg».proof.Proof.KI.Tail
import Idealize.ShloMosaic.Lib.StableHlo.Run

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The result buffer at the end holds what the five host operations after the kernel make of the kernel's result array. -/
theorem V₃_v6 (c : Dev nD) :
    (V₃ m c (Proc.devRef .tc main_v6) : S_.Idx → Elt F .f32) = tailFn ((dats m 0 c).arrAt 4 cfg0.N) := by
  -- the five operations in order: the constant 0, the sum from it, the constant 8192, the quotient, the negation
  show StableHlo.after hostOps1 (V₂ m c) (Proc.devRef .tc main_v6) = _
  after_results
  rw [V₂_v3]
  rfl

end Cert.KernelIdeal.GC

end
-- ==== Proof.KI.Blocks.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Data
import Idealize.ShloMosaic.Lib.ValueIdx
import Idealize.ShloMosaic.Lib.StableHlo.Run

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-- Row `p` of the block at point `t` is row 1024·t + p of the whole array. -/
def tRow (t : Fin cfg0.N) (p : Fin 1024) : Fin 8192 :=
  ⟨1024 * t.val + p.val, by have h0 : t.val < 8 := Nat.lt_of_lt_of_eq t.isLt N_0; have := p.isLt; omega⟩

/-! What the three host operations before the kernel leave in the arrays the kernel's windows are on, and the arguments
    untouched. -/
theorem VA_v0 (c : Dev nD) :
    (VA m c main_v0 : S8192x128.Idx → Elt F .bf16) = truncf .bf16 (m ((c : Thread nD τ).loc main_arg0) : S8192x128.Idx → Elt F .f32) bitsLt_bf16_f32 := by
  show StableHlo.after hostOps0 (fun b => m (c, b)) (Proc.devRef .tc main_v0) = _
  after_results
theorem VA_v1 (c : Dev nD) :
    (VA m c main_v1 : S8192x1.Idx → Elt F .i32) = shapeCast S8192x1 (m ((c : Thread nD τ).loc main_arg1) : S8192.Idx → Elt F .i32) shapeCasts_S8192_S8192x1 := by
  show StableHlo.after hostOps0 (fun b => m (c, b)) (Proc.devRef .tc main_v1) = _
  after_results
  rfl
theorem VA_v2 (c : Dev nD) :
    (VA m c main_v2 : S1x8192.Idx → Elt F .i32) = shapeCast S1x8192 (m ((c : Thread nD τ).loc main_arg1) : S8192.Idx → Elt F .i32) shapeCasts_S8192_S1x8192 := by
  show StableHlo.after hostOps0 (fun b => m (c, b)) (Proc.devRef .tc main_v2) = _
  after_results
  rfl
theorem VA_arg0 (c : Dev nD) : VA m c main_arg0 = m ((c : Thread nD τ).loc main_arg0) := by
  show StableHlo.after hostOps0 (fun b => m (c, b)) (Proc.devRef .tc main_arg0) = _
  after_results
theorem VA_arg1 (c : Dev nD) : VA m c main_arg1 = m ((c : Thread nD τ).loc main_arg1) := by
  show StableHlo.after hostOps0 (fun b => m (c, b)) (Proc.devRef .tc main_arg1) = _
  after_results

/-! The windows' block indices over the grid: windows 0 and 2 move down their arrays with the point, windows 1 and 3 stay
    on the one block that is the whole array. -/
private theorem idx_win0 : ∀ t : Fin cfg0.N, win0_0.index t (0 : Fin 2) = t.val ∧ win0_0.index t (1 : Fin 2) = 0 :=
  (by decide +kernel : ∀ t : Fin grid0.N, _)
private theorem idx_win1 : ∀ t : Fin cfg0.N, win0_1.index t (0 : Fin 2) = 0 ∧ win0_1.index t (1 : Fin 2) = 0 :=
  (by decide +kernel : ∀ t : Fin grid0.N, _)
private theorem idx_win2 : ∀ t : Fin cfg0.N, win0_2.index t (0 : Fin 2) = t.val ∧ win0_2.index t (1 : Fin 2) = 0 :=
  (by decide +kernel : ∀ t : Fin grid0.N, _)
private theorem idx_win3 : ∀ t : Fin cfg0.N, win0_3.index t (0 : Fin 2) = 0 ∧ win0_3.index t (1 : Fin 2) = 0 :=
  (by decide +kernel : ∀ t : Fin grid0.N, _)

/-! Each window's block at a point, read at an index, is its array at the block's place. -/
theorem iblk0_apply (c : Dev nD) (t : Fin cfg0.N) (p : Fin 1024) (k : Fin 128) :
    (iblk m c 0 t : S1024x128.Idx → Elt F .bf16) (ix2 p k) = (VA m c main_v0 : S8192x128.Idx → Elt F .bf16) (ix2 (tRow t p) k) := by
  -- the block's place in the array: on each axis, block index × block size + the coordinate inside the block
  show VA m c main_v0 (((cfg0.win 0).blk t).view.emb (ix2 p k)) = VA m c main_v0 (ix2 (tRow t p) k)
  congr 1
  funext a; apply Fin.ext
  match a with
  | ⟨0, _⟩ => show win0_0.index t (0 : Fin 2) * 1024 + 1 * p.val = 1024 * t.val + p.val; rw [(idx_win0 t).1]; omega
  | ⟨1, _⟩ => show win0_0.index t (1 : Fin 2) * 128 + 1 * k.val = k.val; rw [(idx_win0 t).2]; omega
theorem iblk1_apply (c : Dev nD) (t : Fin cfg0.N) (j : Fin 8192) (k : Fin 128) :
    (iblk m c 1 t : S8192x128.Idx → Elt F .bf16) (ix2 j k) = (VA m c main_v0 : S8192x128.Idx → Elt F .bf16) (ix2 j k) := by
  -- the whole array is this window's one block
  show VA m c main_v0 (((cfg0.win 1).blk t).view.emb (ix2 j k)) = VA m c main_v0 (ix2 j k)
  congr 1
  funext a; apply Fin.ext
  match a with
  | ⟨0, _⟩ => show win0_1.index t (0 : Fin 2) * 8192 + 1 * j.val = j.val; rw [(idx_win1 t).1]; omega
  | ⟨1, _⟩ => show win0_1.index t (1 : Fin 2) * 128 + 1 * k.val = k.val; rw [(idx_win1 t).2]; omega
theorem iblk2_apply (c : Dev nD) (t : Fin cfg0.N) (p : Fin 1024) :
    (iblk m c 2 t : S1024x1.Idx → Elt F .i32) (ix2 p 0) = (VA m c main_v1 : S8192x1.Idx → Elt F .i32) (ix2 (tRow t p) 0) := by
  show VA m c main_v1 (((cfg0.win 2).blk t).view.emb (ix2 p 0)) = VA m c main_v1 (ix2 (tRow t p) 0)
  congr 1
  funext a; apply Fin.ext
  match a with
  | ⟨0, _⟩ => show win0_2.index t (0 : Fin 2) * 1024 + 1 * p.val = 1024 * t.val + p.val; rw [(idx_win2 t).1]; omega
  | ⟨1, _⟩ => show win0_2.index t (1 : Fin 2) * 1 + 1 * 0 = 0; rw [(idx_win2 t).2]
theorem iblk3_apply (c : Dev nD) (t : Fin cfg0.N) (j : Fin 8192) :
    (iblk m c 3 t : S1x8192.Idx → Elt F .i32) (ix2 0 j) = (VA m c main_v2 : S1x8192.Idx → Elt F .i32) (ix2 0 j) := by
  show VA m c main_v2 (((cfg0.win 3).blk t).view.emb (ix2 0 j)) = VA m c main_v2 (ix2 0 j)
  congr 1
  funext a; apply Fin.ext
  match a with
  | ⟨0, _⟩ => show win0_3.index t (0 : Fin 2) * 1 + 1 * 0 = 0; rw [(idx_win3 t).1]
  | ⟨1, _⟩ => show win0_3.index t (1 : Fin 2) * 8192 + 1 * j.val = j.val; rw [(idx_win3 t).2]; omega

end Cert.KernelIdeal.GC

end
-- ==== Proof.KI.Final.lean ====
import proofs.«408867_j74234214744332_3_alg».proof.Proof.Gen.KernelIdeal.Launch
import proofs.«408867_j74234214744332_3_alg».proof.Proof.Gen.KernelIdeal.Skeleton
import proofs.«408867_j74234214744332_3_alg».proof.Proof.Gen.KernelIdeal.Loops
import proofs.«408867_j74234214744332_3_alg».proof.Proof.Gen.KernelIdeal.Points
import Idealize.ShloMosaic.Lib.Pipeline.FrameBody
import Idealize.ShloMosaic.Lib.Ring
import Idealize.ShloMosaic.Lib.Tactic
import proofs.«408867_j74234214744332_3_alg».proof.Proof.KI.Blocks
import Idealize.ShloMosaic.Lib.Pipeline.Value

set_option maxRecDepth 16384

noncomputable section

namespace Cert.KernelIdeal.GC

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

variable (m : (ℓ : Loc nD τ sig) → Buf (Elt F) ℓ)

/-! ## Rows of the result array and rows of a block -/

/-- The point whose block holds row `r` of the result array. -/
private def ptOf (r : Fin 8192) : Fin cfg0.N := ⟨r.val / 1024, Nat.lt_of_lt_of_eq (by have := r.isLt; omega) N_0.symm⟩

/-- Row `r`'s place inside its block. -/
private def rowIn (r : Fin 8192) : Fin 1024 := ⟨r.val % 1024, Nat.mod_lt _ (by decide)⟩

private theorem ptOf_tRow (t : Fin cfg0.N) (p : Fin 1024) : ptOf (tRow t p) = t := by
  refine Fin.ext ?_
  show (1024 * t.val + p.val) / 1024 = t.val
  have := p.isLt
  omega

private theorem rowIn_tRow (t : Fin cfg0.N) (p : Fin 1024) : rowIn (tRow t p) = p := by
  refine Fin.ext ?_
  show (1024 * t.val + p.val) % 1024 = p.val
  have := p.isLt
  omega

/-- What the body stores for row `p` of its block at point `t`. -/
private def outRow (c : Dev nD) (t : Fin cfg0.N) (p : Fin 1024) : Elt F .f32 :=
  outPay (grid0.coords t) (iblk m c 0 t) (iblk m c 1 t) (iblk m c 2 t) (iblk m c 3 t) (ix2 p 0)

/-- The whole result array as one function of its index: row `r` holds what the body stores, at the point whose block
    holds `r`, for `r`'s row of that block. -/
private def outArr (c : Dev nD) : S8192x1.Idx → Elt F .f32 := fun j => outRow m c (ptOf (j 0)) (rowIn (j 0))

/-- The result window's index map, decided over the grid: point `t`'s block is block `t` of the rows, the one block of the
    columns. -/
private theorem idx_out : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)

/-- WHAT POINT `t` WRITES BACK is block `t` of that array. -/
private theorem flushed_out (c : Dev nD) (t : Fin cfg0.N) :
    (dats m 0 c).flushed 4 t = ((cfg0.win 4).blk t).view.read (Elt F) (outArr m c) := by
  show (cfg0.win 4).cut (grid0.coords t) ((dats m 0 c).after 4 t) = _
  rw [after0_4]
  obtain ⟨e0, e1⟩ := idx_out t
  funext y
  have hy0 : (y 0).val < 1024 := (y 0).isLt
  have hy1 : (y 1).val < 1 := (y 1).isLt
  show outPay (grid0.coords t) (iblk m c 0 t) (iblk m c 1 t) (iblk m c 2 t) (iblk m c 3 t) ((cfg0.win 4).xinj (grid0.coords t) y)
      = outRow m c (ptOf ((((cfg0.win 4).blk t).view.emb y) 0)) (rowIn ((((cfg0.win 4).blk t).view.emb y) 0))
  have hp : ptOf ((((cfg0.win 4).blk t).view.emb y) 0) = t := by
    refine Fin.ext ?_
    show (win0_4.index t (0 : Fin 2) * 1024 + 1 * (y 0).val) / 1024 = t.val
    omega
  have hr : rowIn ((((cfg0.win 4).blk t).view.emb y) 0) = ⟨(y 0).val, hy0⟩ := by
    refine Fin.ext ?_
    show (win0_4.index t (0 : Fin 2) * 1024 + 1 * (y 0).val) % 1024 = (y 0).val
    omega
  rw [hp, hr]
  refine congrArg (outPay (grid0.coords t) (iblk m c 0 t) (iblk m c 1 t) (iblk m c 2 t) (iblk m c 3 t)) ?_
  funext a
  refine Fin.ext ?_
  match a with
  | ⟨0, _⟩ => rfl
  | ⟨1, _⟩ => show (y 1).val = 0; omega

/-- An index of the result array is in point `t`'s block iff each coordinate is in the block's range on its axis. -/
private theorem mem_blk_out (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3).slice (win0_4.rect t)).set ↔ _
  rw [View.set_slice_whole, Rect.mem_set_unit]
  exact Iff.rfl

/-- The eight blocks tile the array: row `r` is in the block of point `r / 1024`. -/
private theorem cover_out (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  refine ⟨ptOf (i 0), flush0_4 _, ?_⟩
  rw [mem_blk_out]
  obtain ⟨e0, e1⟩ := idx_out (ptOf (i 0))
  have ev : (ptOf (i 0)).val = (i 0).val / 1024 := rfl
  intro a
  match a with
  | ⟨0, _⟩ =>
    show win0_4.index (ptOf (i 0)) (0 : Fin 2) * 1024 ≤ (i 0).val ∧ (i 0).val < win0_4.index (ptOf (i 0)) (0 : Fin 2) * 1024 + 1024
    omega
  | ⟨1, _⟩ =>
    show win0_4.index (ptOf (i 0)) (1 : Fin 2) * 1 ≤ (i 1).val ∧ (i 1).val < win0_4.index (ptOf (i 0)) (1 : Fin 2) * 1 + 1
    omega

/-! ## The result array after the run -/

/-- THE WHOLE-ARRAY POST of the result window: after the eight write-backs the result array holds, at row 1024·t + p,
    what the body stored for row `p` of its block at point `t` (the eight blocks tile the array). -/
theorem arrAt_out (c : Dev nD) (t : Fin cfg0.N) (p : Fin 1024) :
    ((dats m 0 c).arrAt 4 cfg0.N : S8192x1.Idx → Elt F .f32) (ix2 (tRow t p) 0)
      = outPay (grid0.coords t) (iblk m c 0 t) (iblk m c 1 t) (iblk m c 2 t) (iblk m c 3 t) (ix2 p 0) := by
  have h := (dats m 0 c).arrAt_eq_of_cover 4 (outArr m c) (fun t _ => flushed_out m c t) (cover_out)
  refine (congrFun h (ix2 (tRow t p) 0)).trans ?_
  show outRow m c (ptOf (tRow t p)) (rowIn (tRow t p)) = outRow m c t p
  rw [ptOf_tRow, rowIn_tRow]

end Cert.KernelIdeal.GC

end
-- ==== Proof.KI.IdealScore.lean ====
import proofs.«408867_j74234214744332_3_alg».proof.Proof.KI.Pay
import proofs.«408867_j74234214744332_3_alg».proof.Proof.GC.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GC

open Cert.KernelIdeal Cert.KernelIdeal.Gen Cert.GC Idealize.ShloMosaic Idealize.ShloMosaic.ValueIdx

/-- The loop has sixteen trips. -/
theorem trips_eq : k0_t1_loop.trips = 16 := by decide

/-- Trip `k` as a chunk number. -/
def chunkOf (k : Fin k0_t1_loop.trips) : Fin 16 := k.cast trips_eq

/-- The score of block row `p` against column `j`: the query row scaled by the named constant, then the dot product. -/
def scAt (x1 : Vec Ideal S1024x128 .bf16) (x2 : Vec Ideal S8192x128 .bf16) (p : Fin 1024) (j : Fin 8192) : EReal :=
  ∑ k : Fin 128, (x1 (ix2 p k) * (cT : EReal)) * x2 (ix2 j k)

/-- Whether column `j`'s label is block row `p`'s. -/
def sameAt (x3 : Vec Ideal S1024x1 .i32) (x4 : Vec Ideal S1x8192 .i32) (p : Fin 1024) (j : Fin 8192) : Bool :=
  decide (x3 (ix2 p 0) = x4 (ix2 0 j))

/-- Whether column `j` is block row `p`'s own row of the whole array, at grid coordinates `i`. -/
def diagAt (i : grid0.Coords) (p : Fin 1024) (j : Fin 8192) : Bool := decide (1024 * (i 0).val + p.val = j.val)

/-- Block row `p`'s four statistics. -/
def rowOf (s : Stats Ideal) (p : Fin 1024) : RowSt := ⟨s.M (ix2 p 0), s.P (ix2 p 0), s.T (ix2 p 0), s.D (ix2 p 0)⟩

/-- The named constant is the rational the table gives it. -/
theorem inv_t_eq : Named.named (F := Ideal) κ "inv_t" (φ := .f32) 0x40A00000#32 = (cT : EReal) :=
  IdealRules.named_const.ideal_named_scalar _ _ _ _ rfl

/-- A trip number is below sixteen. -/
private theorem trip_lt (k : Fin k0_t1_loop.trips) : k.val < 16 := trips_eq ▸ k.isLt

/-- Trip `k`'s chunk starts at row 512·k, column 0: the 32-bit chain (k · 1 + 0) · 512 does not wrap for k < 16. -/
private theorem off1_eq (k : Fin k0_t1_loop.trips) : k0_off1 k = ![512 * k.val, 0] := by
  have hk := trip_lt k
  have e : ((0#32 + (0#32 + BitVec.ofNat 32 k.val * 1#32) * 1#32) * 512#32).toNat = 512 * k.val := by
    simp only [BitVec.zero_add, BitVec.mul_one, BitVec.toNat_mul, BitVec.toNat_ofNat]; omega
  unfold k0_off1
  simp only [Scf.iv, Scalar.muli, Scalar.addi, Scalar.indexCast, IntOp.muli, IntOp.addi]
  rw [e]

/-- Row `l` of chunk `k` is row 512·k + l of the feature array. -/
private theorem kChunk_apply (x2 : Vec Ideal S8192x128 .bf16) (k : Fin k0_t1_loop.trips) (l : Fin 512) (c : Fin 128) :
    kChunk x2 k (ix2 l c) = x2 (ix2 (chunkIdx (chunkOf k) l) c) := by
  show x2 _ = x2 _
  refine congrArg x2 (Shape.idx_ext₂ ?_ ?_)
  · show k0_off1 k 0 + 1 * l.val = 512 * k.val + l.val
    rw [off1_eq]; simp
  · show k0_off1 k 1 + 1 * c.val = c.val
    rw [off1_eq]; simp

/-- The scaled query block at an element: the element times the named constant (the two format changes are the
    identity on the extended reals). -/
private theorem pay14_apply (x1 : Vec Ideal S1024x128 .bf16) (p : Fin 1024) (c : Fin 128) :
    k0_pay14 (F := Ideal) x1 (ix2 p c) = x1 (ix2 p c) * (cT : EReal) := by
  unfold k0_pay14
  simp only [shapeCast_self]
  show x1 (ix2 p c) * Named.named (F := Ideal) κ "inv_t" (φ := .f32) 0x40A00000#32 = _
  rw [inv_t_eq]

/-! The product's operand indices, axis by axis: the left operand is read at (row, contraction), the right at
    (contraction, column). -/

private theorem lhs_ax0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide),
    dif_pos (show (0 : Fin S1024x128.rank) ∈ dot_S1024x128_S128x512_S1024x512_1_0_0_1_n_n.lhsNonContracting by decide)]
  rfl
private theorem lhs_ax1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
private theorem rhs_ax0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
private theorem rhs_ax1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide),
    dif_pos (show (1 : Fin S128x512.rank) ∈ dot_S1024x128_S128x512_S1024x512_1_0_0_1_n_n.rhsNonContracting by decide)]
  rfl

/-- The matrix product of a 1024×128 block with the transpose of a 512×128 block, at (p, l): the sum over the 128
    shared coordinates of the products of row p of the first with row l of the second. -/
private theorem pay2_apply (a : FVec Ideal S1024x128 .bf16) (b : Vec Ideal S512x128 .bf16) (p : Fin 1024) (l : Fin 512) :
    k0_pay2 (F := Ideal) a b (ix2 p l) = ∑ c : Fin 128, a (ix2 p c) * b (ix2 l c) := by
  unfold k0_pay2
  simp only [shapeCast_self]
  refine (Ideal.matmul_constant_zero_apply _ none a _ (ix2 p l)).trans ?_
  rw [← Equiv.sum_comp (contrEquiv1 dot_S1024x128_S128x512_S1024x512_1_0_0_1_n_n 128 rfl rfl).symm]
  refine Finset.sum_congr rfl fun c _ => ?_
  have hc := contrEquiv1_symm_val dot_S1024x128_S128x512_S1024x512_1_0_0_1_n_n 128 rfl rfl c
  have el : dot_S1024x128_S128x512_S1024x512_1_0_0_1_n_n.lhsIdx (ix2 p l)
      ((contrEquiv1 dot_S1024x128_S128x512_S1024x512_1_0_0_1_n_n 128 rfl rfl).symm c) = ix2 p c :=
    Shape.idx_ext₂ (lhs_ax0 _ _) ((lhs_ax1 _ _).trans hc)
  have er : dot_S1024x128_S128x512_S1024x512_1_0_0_1_n_n.rhsIdx (ix2 p l)
      ((contrEquiv1 dot_S1024x128_S128x512_S1024x512_1_0_0_1_n_n 128 rfl rfl).symm c) = ix2 c l :=
    Shape.idx_ext₂ ((rhs_ax0 _ _).trans hc) (rhs_ax1 _ _)
  rw [el, er]
  refine congrArg (a (ix2 p c) * ·) ?_
  exact transpose_apply [1, 0] b transposes_S512x128_p1_0_S128x512 (ix2 c l) (ix2 l c) (fun d => match d with
    | ⟨0, _⟩ => rfl
    | ⟨1, _⟩ => rfl)

/-- A chunk's matrix product at row `p`, column `l` of the chunk is the score against column 512·k + l. -/
theorem score_ideal (x1 : Vec Ideal S1024x128 .bf16) (x2 : Vec Ideal S8192x128 .bf16) (k : Fin k0_t1_loop.trips)
    (p : Fin 1024) (l : Fin 512) :
    k0_pay2 (F := Ideal) (k0_pay14 x1) (kChunk x2 k) (ix2 p l) = scAt x1 x2 p (chunkIdx (chunkOf k) l) := by
  rw [pay2_apply]
  unfold scAt
  exact Finset.sum_congr rfl fun c _ => by rw [pay14_apply, kChunk_apply]

/-- The pattern of −∞ denotes the bottom of the extended reals. -/
private theorem ofBits_ninf : Ideal.ofBits .f32 0xFF800000#32 = ⊥ := by simp [Ideal.ofBits, Ideal.ieee]

/-- A vector of 1024 values seen as a 1024×1 column reads its p-th value at (p, 0): both have row-major position p. -/
private theorem col_apply {α : Type} (v : S1024.Idx → α) (p : Fin 1024) :
    shapeCast S1024x1 v shapeCasts_S1024_S1024x1 (ix2 p 0) = v (ix1 p) := by
  refine shapeCast_apply v _ (ix2 p 0) (ix1 p) ?_
  rw [Shape.rowMajor_val_one, Shape.rowMajor_val_two]
  show p.val = p.val * 1 + 0
  omega

/-- The index of the 1024×512 block over row p with column l inserted is (p, l). -/
private theorem lift_eq (p : Fin 1024) (l : Fin 512) : reduces_S1024x512_S1024.lift (ix1 p) l = ix2 p l :=
  Shape.idx_ext₂ rfl rfl

/-- The running maximum after a chunk. -/
theorem step_M (i : grid0.Coords) (x1 : Vec Ideal S1024x128 .bf16) (x2 : Vec Ideal S8192x128 .bf16) (x3 : Vec Ideal S1024x1 .i32)
    (x4 : Vec Ideal S1x8192 .i32) (k : Fin k0_t1_loop.trips) (s : Stats Ideal) (p : Fin 1024) :
    (statsStep i x1 x2 x3 x4 k s).M (ix2 p 0)
      = max (s.M (ix2 p 0)) (emax fun l : Fin 512 => scAt x1 x2 p (chunkIdx (chunkOf k) l)) := by
  show k0_pay20 (k0_pay3 (k0_pay14 x1) (kChunk x2 k) s.M) (ix2 p 0) = _
  unfold k0_pay20 k0_pay3
  simp only [shapeCast_self]
  refine congrArg (max (s.M (ix2 p 0))) ?_
  refine (col_apply _ p).trans ?_
  refine (Ideal.multiReduction_maximumf_single _ _ reduces_S1024x512_S1024 _ _ (ix1 p)).trans ?_
  unfold emax
  rw [show FloatOps.ofBits (F := Ideal) .f32 0xFF800000#32 = (⊥ : EReal) from ofBits_ninf]
  refine Finset.fold_congr fun l _ => ?_
  exact (congrArg (k0_pay2 (k0_pay14 x1) (kChunk x2 k)) (lift_eq p l)).trans (score_ideal x1 x2 k p l)

/-- The row-number word at (p, l): 1024 times the grid coordinate plus p, in 32 bits. -/
private theorem pay16_apply (i : grid0.Coords) (p : Fin 1024) (l : Fin 512) :
    k0_pay16 i (ix2 p l) = BitVec.ofNat 32 (i 0).val * 1024#32 + BitVec.ofNat 32 p.val := by
  unfold k0_pay16
  show BitVec.ofNat 32 (i 0).val * 1024#32 + iota Kind.tc S1024x512 32 [0] iota_S1024x512_d0_w32 (ix2 p l) = _
  rw [iota_single_apply]

/-- A select on the equality test of two words is the `if` on their equality. -/
private theorem select_cmpi_eq {α : Type} (a b : BitVec 32) (A B : α) :
    Scalar.select (IntOp.cmpi .eq a b) A B = if a = b then A else B := by
  by_cases h : a = b
  · rw [if_pos h, show IntOp.cmpi .eq a b = 1#1 by simp [IntOp.cmpi, h], select_one]
  · rw [if_neg h, show IntOp.cmpi .eq a b = 0#1 by
      rw [show IntOp.cmpi .eq a b = BitVec.ofBool (a == b) from rfl, beq_false_of_ne h]; rfl, select_zero]

/-- The row-number word equals the column-number word exactly when 1024·i + p = 512·k + l: with i < 8, p < 1024,
    k < 16 and l < 512 neither side reaches 2³², so nothing wraps. -/
private theorem diag_word (i : grid0.Coords) (k : Fin k0_t1_loop.trips) (p : Fin 1024) (l : Fin 512) :
    (BitVec.ofNat 32 (i 0).val * 1024#32 + BitVec.ofNat 32 p.val
      = (0#32 + (0#32 + BitVec.ofNat 32 k.val * 1#32) * 1#32) * 512#32 + BitVec.ofNat 32 l.val)
    ↔ 1024 * (i 0).val + p.val = 512 * k.val + l.val := by
  have hk := trip_lt k
  have hi : (i 0).val < 8 := (i 0).isLt
  have hp := p.isLt
  have hl := l.isLt
  rw [← BitVec.toNat_inj]
  simp only [BitVec.zero_add, BitVec.mul_one, BitVec.toNat_add, BitVec.toNat_mul, BitVec.toNat_ofNat]
  omega

/-- The masked product at (p, l): the product where column 512·k + l is row p's own, zero elsewhere. -/
private theorem diag_pt (i : grid0.Coords) (a : FVec Ideal S1024x128 .bf16) (b : Vec Ideal S512x128 .bf16)
    (k : Fin k0_t1_loop.trips) (p : Fin 1024) (l : Fin 512) :
    select (cmpi .eq (k0_pay16 i)
        (addi (broadcast S1024x512 (Scalar.muli (Scalar.addi 0#32 (Scalar.muli (Scf.iv 0#32 1#32 k.val) 1#32)) 512#32))
          (iota .tc S1024x512 32 [1] iota_S1024x512_d1_w32)))
      (k0_pay2 (F := Ideal) a b) (broadcast S1024x512 (FloatOps.ofBits .f32 0#32)) (ix2 p l)
      = if diagAt i p (chunkIdx (chunkOf k) l) then k0_pay2 (F := Ideal) a b (ix2 p l) else 0 := by
  show Scalar.select (IntOp.cmpi .eq (k0_pay16 i (ix2 p l))
      ((0#32 + (0#32 + BitVec.ofNat 32 k.val * 1#32) * 1#32) * 512#32
        + iota .tc S1024x512 32 [1] iota_S1024x512_d1_w32 (ix2 p l)))
    (k0_pay2 (F := Ideal) a b (ix2 p l)) (Ideal.ofBits .f32 0#32) = _
  rw [pay16_apply, iota_single_apply, select_cmpi_eq, Ideal.ofBits_zero_f32]
  exact if_congr ((diag_word i k p l).trans decide_eq_true_iff.symm) rfl rfl

/-- The row sum of the masked product, as a column, at (p, 0). -/
private theorem pay8_apply (i : grid0.Coords) (a : FVec Ideal S1024x128 .bf16) (b : Vec Ideal S512x128 .bf16)
    (k : Fin k0_t1_loop.trips) (p : Fin 1024) :
    k0_pay8 (F := Ideal) a (k0_pay16 i) 0#32 1#32 k b (ix2 p 0)
      = ∑ l : Fin 512, (if diagAt i p (chunkIdx (chunkOf k) l) then k0_pay2 (F := Ideal) a b (ix2 p l) else 0) := by
  unfold k0_pay8
  refine (col_apply _ p).trans ?_
  refine (Ideal.multiReduction_add_single _ _ reduces_S1024x512_S1024 _ _ (ix1 p)).trans ?_
  refine Finset.sum_congr rfl fun l _ => ?_
  exact (congrArg _ (lift_eq p l)).trans (diag_pt i a b k p l)

/-- The diagonal sum after a chunk. -/
theorem step_D (i : grid0.Coords) (x1 : Vec Ideal S1024x128 .bf16) (x2 : Vec Ideal S8192x128 .bf16) (x3 : Vec Ideal S1024x1 .i32)
    (x4 : Vec Ideal S1x8192 .i32) (k : Fin k0_t1_loop.trips) (s : Stats Ideal) (p : Fin 1024) :
    (statsStep i x1 x2 x3 x4 k s).D (ix2 p 0)
      = s.D (ix2 p 0) + ∑ l : Fin 512, (if diagAt i p (chunkIdx (chunkOf k) l) then scAt x1 x2 p (chunkIdx (chunkOf k) l) else 0) := by
  show k0_pay19 (k0_pay8 (k0_pay14 x1) (k0_pay16 i) 0#32 1#32 k (kChunk x2 k)) s.D (ix2 p 0) = _
  unfold k0_pay19
  simp only [shapeCast_self]
  show s.D (ix2 p 0) + k0_pay8 (k0_pay14 x1) (k0_pay16 i) 0#32 1#32 k (kChunk x2 k) (ix2 p 0) = _
  rw [pay8_apply]
  refine congrArg (s.D (ix2 p 0) + ·) (Finset.sum_congr rfl fun l _ => ?_)
  rw [score_ideal]

end Cert.KernelIdeal.GC

end
-- ==== Proof.KI.IdealSums.lean ====
import proofs.«408867_j74234214744332_3_alg».proof.Proof.KI.IdealScore

noncomputable section

namespace Cert.KernelIdeal.GC

open Cert.KernelIdeal Cert.KernelIdeal.Gen Cert.GC Idealize.ShloMosaic Idealize.ShloMosaic.ValueIdx

/-! ## Words and layout operations at a point -/

/-- The pattern of minus infinity denotes the bottom of the extended reals. -/
private theorem ofBits_ninf : Ideal.ofBits .f32 0xFF800000#32 = ⊥ := by simp [Ideal.ofBits, Ideal.ieee]

/-- The keepdims cast of a vector of 1024 rows reads row `p` at column 0. -/
private theorem keep_apply {α : Type} (v : S1024.Idx → α) (p : Fin 1024) :
    shapeCast S1024x1 v shapeCasts_S1024_S1024x1 (ix2 p 0) = v (ix1 p) := by
  refine shapeCast_apply v _ (ix2 p 0) (ix1 p) ?_
  rw [Shape.rowMajor_val_one, Shape.rowMajor_val_two]
  show p.val = p.val * 1 + 0
  omega

/-- A column of 1024 rows broadcast along 512 columns reads its row. -/
private theorem bcol_apply {α : Type} (v : S1024x1.Idx → α) (p : Fin 1024) (l : Fin 512) :
    broadcastTo S1024x512 v broadcasts_S1024x1_S1024x512 (ix2 p l) = v (ix2 p 0) := by
  refine broadcastTo_apply v _ (ix2 p l) (ix2 p 0) fun a => ?_
  match a with
  | ⟨0, _⟩ => rfl
  | ⟨1, _⟩ => rfl

/-- A row of 512 columns broadcast along 1024 rows reads its column. -/
private theorem brow_apply {α : Type} (v : S1x512.Idx → α) (p : Fin 1024) (l : Fin 512) :
    broadcastTo S1024x512 v broadcasts_S1x512_S1024x512 (ix2 p l) = v (ix2 0 l) := by
  refine broadcastTo_apply v _ (ix2 p l) (ix2 0 l) fun a => ?_
  match a with
  | ⟨0, _⟩ => rfl
  | ⟨1, _⟩ => rfl

/-- The keepdims row sum of a 1024 × 512 block at row `p` is the sum over the row's 512 columns. -/
private theorem rowsum_apply (src : FVec Ideal S1024x512 .f32) (p : Fin 1024) :
    shapeCast S1024x1 (multiReduction (F := Ideal) .add [1] S1024 src 0x00000000#32 reduces_S1024x512_S1024 (.inl rfl) rfl)
        shapeCasts_S1024_S1024x1 (ix2 p 0)
      = ∑ l : Fin 512, src (ix2 p l) := by
  refine (keep_apply _ p).trans ?_
  refine (Ideal.multiReduction_add_single src _ reduces_S1024x512_S1024 (.inl rfl) rfl (ix1 p)).trans ?_
  refine Finset.sum_congr rfl fun l _ => congrArg src ?_
  funext a
  match a with
  | ⟨0, _⟩ => rfl
  | ⟨1, _⟩ => rfl

/-! ## The chunk's payloads at a point -/

/-- The new running maximum of row `p`, before the same-shape cast that stores it. -/
private theorem pay3_at (i : grid0.Coords) (x1 : Vec Ideal S1024x128 .bf16) (x2 : Vec Ideal S8192x128 .bf16)
    (x3 : Vec Ideal S1024x1 .i32) (x4 : Vec Ideal S1x8192 .i32) (k : Fin k0_t1_loop.trips) (s : Stats Ideal) (p : Fin 1024) :
    k0_pay3 (F := Ideal) (k0_pay14 x1) (kChunk x2 k) s.M (ix2 p 0)
      = max (s.M (ix2 p 0)) (emax fun l : Fin 512 => scAt x1 x2 p (chunkIdx (chunkOf k) l)) := by
  refine Eq.trans ?_ (step_M i x1 x2 x3 x4 k s p)
  show _ = k0_pay20 (k0_pay3 (k0_pay14 x1) (kChunk x2 k) s.M) (ix2 p 0)
  unfold k0_pay20
  exact (congrFun (shapeCast_self _ _) _).symm

/-- The rescaling factor of row `p`: the exponential of the old maximum less the new one. -/
private theorem pay4_at (q : FVec Ideal S1024x128 .bf16) (v : Vec Ideal S512x128 .bf16) (M : Vec Ideal S1024x1 .f32) (p : Fin 1024) :
    k0_pay4 q v M M (ix2 p 0) = Ideal.exp (M (ix2 p 0) - k0_pay3 q v M (ix2 p 0)) := rfl

/-- The exponential of a score against the row's new maximum. -/
private theorem pay5_at (q : FVec Ideal S1024x128 .bf16) (v : Vec Ideal S512x128 .bf16) (M : Vec Ideal S1024x1 .f32)
    (p : Fin 1024) (l : Fin 512) :
    k0_pay5 q v M (ix2 p l) = Ideal.exp (k0_pay2 q v (ix2 p l) - k0_pay3 q v M (ix2 p 0)) := by
  show Ideal.exp (k0_pay2 q v (ix2 p l) - broadcastTo S1024x512 (k0_pay3 q v M) broadcasts_S1024x1_S1024x512 (ix2 p l)) = _
  rw [bcol_apply]

/-- The chunk's all-columns sum of row `p`. -/
private theorem pay7_at (q : FVec Ideal S1024x128 .bf16) (v : Vec Ideal S512x128 .bf16) (M : Vec Ideal S1024x1 .f32) (p : Fin 1024) :
    k0_pay7 q v M (ix2 p 0) = ∑ l : Fin 512, k0_pay5 q v M (ix2 p l) :=
  rowsum_apply (k0_pay5 q v M) p

/-- The stored all-columns sum: the old one rescaled, plus the chunk's. -/
private theorem pay18_at (a b : FVec Ideal S1024x1 .f32) (T : Vec Ideal S1024x1 .f32) (p : Fin 1024) :
    k0_pay18 a b T (ix2 p 0) = a (ix2 p 0) * T (ix2 p 0) + b (ix2 p 0) := by
  unfold k0_pay18
  exact congrFun (shapeCast_self _ _) _

/-- A select on an integer equality test is the `if` on the equality. -/
private theorem select_cmpi_eq {α : Type} (x y : BitVec 32) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

/-- The label chunk at column `l` is the label row at column 512·k + l. -/
private theorem lChunk_at (x4 : Vec Ideal S1x8192 .i32) (k : Fin k0_t1_loop.trips) (l : Fin 512) :
    lChunk x4 k (ix2 0 l) = x4 (ix2 0 (chunkIdx (chunkOf k) l)) := by
  show x4 ((Rect.unit (s := S1x8192) (k0_off2 k) S1x512.size (k0_off2_inb k)).idx (ix2 0 l)) = _
  refine congrArg x4 (Shape.idx_ext₂ ?_ ?_)
  · show k0_off2 k 0 + 1 * 0 = 0
    rw [k0_off2_eq]; rfl
  · show k0_off2 k 1 + 1 * l.val = 512 * k.val + l.val
    rw [k0_off2_eq]
    show 512 * k.val + 1 * l.val = 512 * k.val + l.val
    omega

/-- The block's labels pass through a same-shape cast. -/
private theorem pay15_eq (x3 : Vec Ideal S1024x1 .i32) : k0_pay15 x3 = x3 := shapeCast_self _ _

/-- The chunk's same-label sum of row `p`: the exponentials of the columns whose label is the row's. -/
private theorem pay6_at (q : FVec Ideal S1024x128 .bf16) (c : IVec S1024x1 32) (v : Vec Ideal S512x128 .bf16)
    (lc : Vec Ideal S1x512 .i32) (M : Vec Ideal S1024x1 .f32) (p : Fin 1024) :
    k0_pay6 q c v lc M (ix2 p 0)
      = ∑ l : Fin 512, (if c (ix2 p 0) = lc (ix2 0 l) then k0_pay5 q v M (ix2 p l) else 0) := by
  unfold k0_pay6
  refine (rowsum_apply _ p).trans (Finset.sum_congr rfl fun l _ => ?_)
  show Scalar.select (IntOp.cmpi .eq (broadcastTo S1024x512 c broadcasts_S1024x1_S1024x512 (ix2 p l))
        (broadcastTo S1024x512 (shapeCast S1x512 lc shapeCasts_S1x512_S1x512) broadcasts_S1x512_S1024x512 (ix2 p l)))
      (k0_pay5 q v M (ix2 p l)) (Ideal.ofBits .f32 0x00000000#32) = _
  rw [bcol_apply, brow_apply, shapeCast_self, Ideal.ofBits_zero_f32, select_cmpi_eq]

/-- The rescaled old same-label sum. -/
private theorem pay9_at (q : FVec Ideal S1024x128 .bf16) (v : Vec Ideal S512x128 .bf16) (M P : Vec Ideal S1024x1 .f32) (p : Fin 1024) :
    k0_pay9 q v M M P (ix2 p 0) = k0_pay4 q v M M (ix2 p 0) * P (ix2 p 0) := rfl

/-- The stored same-label sum: the rescaled old one plus the chunk's. -/
private theorem pay17_at (a b : FVec Ideal S1024x1 .f32) (p : Fin 1024) :
    k0_pay17 a b (ix2 p 0) = b (ix2 p 0) + a (ix2 p 0) := by
  unfold k0_pay17
  exact congrFun (shapeCast_self _ _) _

/-! ## The statistics of a row before and after a chunk -/

/-- Before the first chunk a row's statistics are the initial ones. -/
theorem rowOf_stats0 (p : Fin 1024) : rowOf (stats0 (F := Ideal)) p = RowSt.init := by
  unfold rowOf stats0 RowSt.init k0_pay10 k0_pay11 k0_pay12 k0_pay13
  simp only [shapeCast_self, broadcast_apply, Ideal.ofBits_def, Ideal.ofBits_zero_f32, ofBits_ninf]

/-- The same-label sum after a chunk. -/
theorem step_P (i : grid0.Coords) (x1 : Vec Ideal S1024x128 .bf16) (x2 : Vec Ideal S8192x128 .bf16) (x3 : Vec Ideal S1024x1 .i32)
    (x4 : Vec Ideal S1x8192 .i32) (k : Fin k0_t1_loop.trips) (s : Stats Ideal) (p : Fin 1024) :
    (statsStep i x1 x2 x3 x4 k s).P (ix2 p 0)
      = Ideal.exp (s.M (ix2 p 0) - max (s.M (ix2 p 0)) (emax fun l : Fin 512 => scAt x1 x2 p (chunkIdx (chunkOf k) l))) * s.P (ix2 p 0)
        + ∑ l : Fin 512, (if sameAt x3 x4 p (chunkIdx (chunkOf k) l)
            then Ideal.exp (scAt x1 x2 p (chunkIdx (chunkOf k) l) - max (s.M (ix2 p 0)) (emax fun l : Fin 512 => scAt x1 x2 p (chunkIdx (chunkOf k) l)))
            else 0) := by
  show k0_pay17 (k0_pay6 (k0_pay14 x1) (k0_pay15 x3) (kChunk x2 k) (lChunk x4 k) s.M)
      (k0_pay9 (k0_pay14 x1) (kChunk x2 k) s.M s.M s.P) (ix2 p 0) = _
  rw [pay17_at, pay9_at, pay4_at, pay6_at, pay3_at i x1 x2 x3 x4 k s p, pay15_eq]
  refine congrArg (_ + ·) (Finset.sum_congr rfl fun l _ => ?_)
  rw [pay5_at, pay3_at i x1 x2 x3 x4 k s p, score_ideal, lChunk_at]
  unfold sameAt
  simp only [decide_eq_true_eq]

/-- The all-columns sum after a chunk. -/
theorem step_T (i : grid0.Coords) (x1 : Vec Ideal S1024x128 .bf16) (x2 : Vec Ideal S8192x128 .bf16) (x3 : Vec Ideal S1024x1 .i32)
    (x4 : Vec Ideal S1x8192 .i32) (k : Fin k0_t1_loop.trips) (s : Stats Ideal) (p : Fin 1024) :
    (statsStep i x1 x2 x3 x4 k s).T (ix2 p 0)
      = Ideal.exp (s.M (ix2 p 0) - max (s.M (ix2 p 0)) (emax fun l : Fin 512 => scAt x1 x2 p (chunkIdx (chunkOf k) l))) * s.T (ix2 p 0)
        + ∑ l : Fin 512, Ideal.exp (scAt x1 x2 p (chunkIdx (chunkOf k) l) - max (s.M (ix2 p 0)) (emax fun l : Fin 512 => scAt x1 x2 p (chunkIdx (chunkOf k) l))) := by
  show k0_pay18 (k0_pay4 (k0_pay14 x1) (kChunk x2 k) s.M s.M) (k0_pay7 (k0_pay14 x1) (kChunk x2 k) s.M) s.T (ix2 p 0) = _
  rw [pay18_at, pay4_at, pay7_at, pay3_at i x1 x2 x3 x4 k s p]
  refine congrArg (_ + ·) (Finset.sum_congr rfl fun l _ => ?_)
  rw [pay5_at, pay3_at i x1 x2 x3 x4 k s p, score_ideal]

end Cert.KernelIdeal.GC

end
-- ==== Proof.KI.IdealOut.lean ====
import proofs.«408867_j74234214744332_3_alg».proof.Proof.KI.IdealSums
import Idealize.ShloMosaic.Lib.IdealHost

noncomputable section

namespace Cert.KernelIdeal.GC

open Cert.KernelIdeal Cert.KernelIdeal.Gen Cert.GC Idealize.ShloMosaic Idealize.ShloMosaic.ValueIdx

/-- One chunk's update, row by row, is the row recurrence's step. -/
theorem rowOf_step (i : grid0.Coords) (x1 : Vec Ideal S1024x128 .bf16) (x2 : Vec Ideal S8192x128 .bf16) (x3 : Vec Ideal S1024x1 .i32)
    (x4 : Vec Ideal S1x8192 .i32) (k : Fin k0_t1_loop.trips) (s : Stats Ideal) (p : Fin 1024) :
    rowOf (statsStep i x1 x2 x3 x4 k s) p
      = (rowOf s p).step (fun l : Fin 512 => scAt x1 x2 p (chunkIdx (chunkOf k) l))
          (fun l => sameAt x3 x4 p (chunkIdx (chunkOf k) l)) (fun l => diagAt i p (chunkIdx (chunkOf k) l)) := by
  -- field by field: the maximum, the two rescaled sums of exponentials and the diagonal sum after the chunk are the step's
  unfold rowOf RowSt.step
  rw [step_M, step_P, step_T, step_D]

/-- After `n` chunks the block's statistics are, row by row, the row recurrence's. -/
theorem rowOf_statsAt (i : grid0.Coords) (x1 : Vec Ideal S1024x128 .bf16) (x2 : Vec Ideal S8192x128 .bf16) (x3 : Vec Ideal S1024x1 .i32)
    (x4 : Vec Ideal S1x8192 .i32) (p : Fin 1024) (n : ℕ) :
    rowOf (statsAt i x1 x2 x3 x4 n) p = rowAt (scAt x1 x2 p) (sameAt x3 x4 p) (diagAt i p) n := by
  -- induction on the number of chunks; both recurrences take a step while n < 16 and keep their value afterwards
  induction n with
  | zero => exact rowOf_stats0 p
  | succ n ih =>
    by_cases h : n < 16
    · have h' : n < k0_t1_loop.trips := by rw [trips_eq]; exact h
      have e1 : statsAt i x1 x2 x3 x4 (n + 1) = statsStep i x1 x2 x3 x4 ⟨n, h'⟩ (statsAt i x1 x2 x3 x4 n) :=
        statsAt_succ i x1 x2 x3 x4 ⟨n, h'⟩
      have e2 : rowAt (scAt x1 x2 p) (sameAt x3 x4 p) (diagAt i p) (n + 1)
          = (rowAt (scAt x1 x2 p) (sameAt x3 x4 p) (diagAt i p) n).step
              (fun l : Fin 512 => scAt x1 x2 p (chunkIdx ⟨n, h⟩ l)) (fun l => sameAt x3 x4 p (chunkIdx ⟨n, h⟩ l))
              (fun l => diagAt i p (chunkIdx ⟨n, h⟩ l)) := by
        rw [rowAt]; exact dif_pos h
      have e3 : chunkOf ⟨n, h'⟩ = ⟨n, h⟩ := Fin.ext rfl
      rw [e1, rowOf_step, ih, e2, e3]
    · have h' : ¬ n < k0_t1_loop.trips := by rw [trips_eq]; exact h
      have e1 : statsAt i x1 x2 x3 x4 (n + 1) = statsAt i x1 x2 x3 x4 n := by
        rw [statsAt]; exact dif_neg h'
      have e2 : rowAt (scAt x1 x2 p) (sameAt x3 x4 p) (diagAt i p) (n + 1)
          = rowAt (scAt x1 x2 p) (sameAt x3 x4 p) (diagAt i p) n := by
        rw [rowAt]; exact dif_neg h
      rw [e1, e2, ih]

/-- The block-level payload at a row: the literal one times (P − exp (D − M)), less (T − P). -/
private theorem pay1_apply (D M P T P' : Vec Ideal S1024x1 .f32) (j : S1024x1.Idx) :
    k0_pay1 (F := Ideal) D M P T P' j
      = Ideal.ofBits .f32 0x3F800000#32 * (P j - Ideal.exp (D j - M j)) - (T j - P' j) := rfl

/-- The four fields of a block row's statistics. -/
private theorem rowOf_m (s : Stats Ideal) (p : Fin 1024) : (rowOf s p).m = s.M (ix2 p 0) := rfl
private theorem rowOf_p (s : Stats Ideal) (p : Fin 1024) : (rowOf s p).p = s.P (ix2 p 0) := rfl
private theorem rowOf_t (s : Stats Ideal) (p : Fin 1024) : (rowOf s p).t = s.T (ix2 p 0) := rfl
private theorem rowOf_d (s : Stats Ideal) (p : Fin 1024) : (rowOf s p).d = s.D (ix2 p 0) := rfl

/-- What the body stores for block row `p` is the kernel's row value of the row's scores. -/
theorem outPay_ideal (i : grid0.Coords) (x1 : Vec Ideal S1024x128 .bf16) (x2 : Vec Ideal S8192x128 .bf16) (x3 : Vec Ideal S1024x1 .i32)
    (x4 : Vec Ideal S1x8192 .i32) (p : Fin 1024) :
    outPay (F := Ideal) i x1 x2 x3 x4 (ix2 p 0) = kerRow (scAt x1 x2 p) (sameAt x3 x4 p) (diagAt i p) := by
  -- after all sixteen chunks the four statistics at row p are the row recurrence's; the stored value is then `RowSt.out`
  have hr := rowOf_statsAt i x1 x2 x3 x4 p 16
  have hM := (rowOf_m (statsAt i x1 x2 x3 x4 16) p).symm.trans (congrArg RowSt.m hr)
  have hP := (rowOf_p (statsAt i x1 x2 x3 x4 16) p).symm.trans (congrArg RowSt.p hr)
  have hT := (rowOf_t (statsAt i x1 x2 x3 x4 16) p).symm.trans (congrArg RowSt.t hr)
  have hD := (rowOf_d (statsAt i x1 x2 x3 x4 16) p).symm.trans (congrArg RowSt.d hr)
  unfold outPay kerRow RowSt.out
  rw [trips_eq, pay1_apply, hM, hP, hT, hD, Ideal.ofBits_one_f32]

end Cert.KernelIdeal.GC

end
-- ==== Proof.GC.Math.lean ====
import proofs.«408867_j74234214744332_3_alg».proof.Proof.GC.Spec

noncomputable section

namespace Cert.GC

open Idealize.ShloMosaic

/-! ### Coercions of reals into the extended reals -/

/-- The coercion of a finite sum of reals is the sum of the coercions. -/
private theorem coe_sum {ι : Type} (A : Finset ι) (f : ι → ℝ) :
    ((∑ a ∈ A, f a : ℝ) : EReal) = ∑ a ∈ A, (f a : EReal) := by
  classical
  induction A using Finset.induction_on with
  | empty => simp
  | insert a A ha ih => rw [Finset.sum_insert ha, Finset.sum_insert ha, EReal.coe_add, ih]

/-- The coercion of a maximum of reals is the maximum of the coercions. -/
private theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- The exponential of a difference of reals. -/
private theorem exp_sub_coe (a b : ℝ) : Ideal.exp ((a : EReal) - (b : EReal)) = ((Real.exp (a - b) : ℝ) : EReal) := by
  rw [← EReal.coe_sub, Ideal.exp_coe]

/-- A masked real. -/
private theorem ite_coe (c : Bool) (a : ℝ) : (if c then (a : EReal) else 0) = (((if c then a else 0) : ℝ) : EReal) := by
  cases c <;> simp

/-- The maximum of finitely many coerced reals, when one of them bounds the others. -/
private theorem emax_coe {n : ℕ} (S : Fin n → ℝ) (l0 : Fin n) (h : ∀ l, S l ≤ S l0) :
    emax (fun l => (S l : EReal)) = (S l0 : EReal) := by
  have e : emax (fun l => (S l : EReal)) = (Finset.univ : Finset (Fin n)).sup (fun l => (S l : EReal)) := rfl
  rw [e]
  apply le_antisymm
  · exact Finset.sup_le (fun l _ => EReal.coe_le_coe_iff.2 (h l))
  · exact Finset.le_sup (f := fun l => (S l : EReal)) (Finset.mem_univ l0)

/-! ### The scores -/

/-- For real features the kernel's score (scale, then dot product) is the reference's (dot product, then divide):
    the named scale is the reciprocal of the divisor. -/
theorem scoreK_eq_scoreR (x : Fin 8192 → Fin 128 → ℝ) (i j : Fin 8192) :
    scoreK (fun a b => (x a b : EReal)) i j = scoreR (fun a b => (x a b : EReal)) i j := by
  have hd : dT ≠ 0 := by unfold dT; norm_num
  have hL : scoreK (fun a b => (x a b : EReal)) i j = ((∑ k : Fin 128, x i k * cT * x j k : ℝ) : EReal) := by
    rw [coe_sum]; unfold scoreK
    exact Finset.sum_congr rfl (fun k _ => by rw [EReal.coe_mul, EReal.coe_mul])
  have hR : scoreR (fun a b => (x a b : EReal)) i j = (((∑ k : Fin 128, x i k * x j k) * (1 / dT) : ℝ) : EReal) := by
    unfold scoreR
    rw [Ideal.div_coe hd, EReal.coe_mul, coe_sum]
    rfl
  rw [hL, hR, Finset.sum_mul]
  congr 1
  refine Finset.sum_congr rfl (fun k _ => ?_)
  unfold cT dT; ring

/-- For real features the score is a real. -/
theorem scoreR_coe (x : Fin 8192 → Fin 128 → ℝ) (i j : Fin 8192) :
    ∃ r : ℝ, scoreR (fun a b => (x a b : EReal)) i j = (r : EReal) := by
  have hd : dT ≠ 0 := by unfold dT; norm_num
  refine ⟨(∑ k : Fin 128, x i k * x j k) * (1 / dT), ?_⟩
  unfold scoreR
  rw [Ideal.div_coe hd, EReal.coe_mul, coe_sum]
  rfl

/-! ### The chunked walk over the columns -/

/-- The columns of the first k chunks. -/
private def cols (k : ℕ) : Finset (Fin 8192) := Finset.univ.filter (fun j => j.val < 512 * k)

private theorem mem_cols {k : ℕ} {j : Fin 8192} : j ∈ cols k ↔ j.val < 512 * k := by
  simp [cols]

private theorem chunkIdx_val (k : Fin 16) (l : Fin 512) : (chunkIdx k l).val = 512 * k.val + l.val := rfl

/-- A column of the first k + 1 chunks lies in the first k chunks or is a column of chunk k. -/
private theorem mem_cols_succ {k : ℕ} (h : k < 16) {j : Fin 8192} :
    j ∈ cols (k + 1) ↔ j ∈ cols k ∨ ∃ l : Fin 512, chunkIdx ⟨k, h⟩ l = j := by
  rw [mem_cols, mem_cols]
  constructor
  · intro hj
    by_cases h1 : j.val < 512 * k
    · exact Or.inl h1
    · refine Or.inr ⟨⟨j.val - 512 * k, by omega⟩, Fin.ext ?_⟩
      rw [chunkIdx_val]; simp only []; omega
  · rintro (h1 | ⟨l, rfl⟩)
    · omega
    · rw [chunkIdx_val]; have := l.isLt; simp only []; omega

/-- A sum over the first k + 1 chunks splits off the sum over chunk k. -/
private theorem sum_cols_succ (f : Fin 8192 → ℝ) {k : ℕ} (h : k < 16) :
    ∑ j ∈ cols (k + 1), f j = ∑ j ∈ cols k, f j + ∑ l : Fin 512, f (chunkIdx ⟨k, h⟩ l) := by
  have hinj : Function.Injective (chunkIdx ⟨k, h⟩) := by
    intro a b hab
    have := congrArg Fin.val hab
    rw [chunkIdx_val, chunkIdx_val] at this
    exact Fin.ext (by omega)
  have hU : cols (k + 1) = cols k ∪ Finset.univ.image (chunkIdx ⟨k, h⟩) := by
    ext j
    rw [mem_cols_succ h, Finset.mem_union, Finset.mem_image]
    simp
  have hD : Disjoint (cols k) (Finset.univ.image (chunkIdx ⟨k, h⟩)) := by
    rw [Finset.disjoint_left]
    intro j hj hj'
    obtain ⟨l, -, rfl⟩ := Finset.mem_image.1 hj'
    rw [mem_cols, chunkIdx_val] at hj
    simp only [] at hj; omega
  rw [hU, Finset.sum_union hD, Finset.sum_image (fun a _ b _ hab => hinj hab)]

private theorem cols_zero : cols 0 = ∅ := by
  ext j; simp [mem_cols]

private theorem cols_all : cols 16 = Finset.univ := by
  ext j; simp [mem_cols]

/-- The same-label exponentials of a set of columns, taken against M. -/
private def sumP (s : Fin 8192 → ℝ) (same : Fin 8192 → Bool) (A : Finset (Fin 8192)) (M : ℝ) : ℝ :=
  ∑ j ∈ A, if same j then Real.exp (s j - M) else 0

/-- All exponentials of a set of columns, taken against M. -/
private def sumT (s : Fin 8192 → ℝ) (A : Finset (Fin 8192)) (M : ℝ) : ℝ :=
  ∑ j ∈ A, Real.exp (s j - M)

/-- The diagonal scores of a set of columns. -/
private def sumD (s : Fin 8192 → ℝ) (diag : Fin 8192 → Bool) (A : Finset (Fin 8192)) : ℝ :=
  ∑ j ∈ A, if diag j then s j else 0

/-- Moving the maximum from M to M' rescales every exponential by exp (M − M'). -/
private theorem rescale_T (s : Fin 8192 → ℝ) (A : Finset (Fin 8192)) (M M' : ℝ) :
    Real.exp (M - M') * sumT s A M = sumT s A M' := by
  unfold sumT; rw [Finset.mul_sum]
  refine Finset.sum_congr rfl (fun j _ => ?_)
  rw [← Real.exp_add]; congr 1; ring

private theorem rescale_P (s : Fin 8192 → ℝ) (same : Fin 8192 → Bool) (A : Finset (Fin 8192)) (M M' : ℝ) :
    Real.exp (M - M') * sumP s same A M = sumP s same A M' := by
  unfold sumP; rw [Finset.mul_sum]
  refine Finset.sum_congr rfl (fun j _ => ?_)
  by_cases hc : same j = true
  · rw [if_pos hc, if_pos hc, ← Real.exp_add]; congr 1; ring
  · rw [if_neg hc, if_neg hc, mul_zero]

/-- One chunk on a state of coerced reals is the coerced real step. -/
private theorem step_coe {n : ℕ} (S : Fin n → ℝ) (same diag : Fin n → Bool) (l0 : Fin n) (h : ∀ l, S l ≤ S l0)
    (M P T D : ℝ) :
    RowSt.step (fun l => (S l : EReal)) same diag ⟨(M : EReal), (P : EReal), (T : EReal), (D : EReal)⟩
      = ⟨((max M (S l0) : ℝ) : EReal),
         ((Real.exp (M - max M (S l0)) * P
            + ∑ l : Fin n, (if same l then Real.exp (S l - max M (S l0)) else 0) : ℝ) : EReal),
         ((Real.exp (M - max M (S l0)) * T + ∑ l : Fin n, Real.exp (S l - max M (S l0)) : ℝ) : EReal),
         ((D + ∑ l : Fin n, (if diag l then S l else 0) : ℝ) : EReal)⟩ := by
  unfold RowSt.step
  simp only [emax_coe S l0 h, ← coe_max, exp_sub_coe, ite_coe, ← coe_sum, ← EReal.coe_mul, ← EReal.coe_add]

/-- The first chunk, from the empty state. -/
private theorem step_init {n : ℕ} (S : Fin n → ℝ) (same diag : Fin n → Bool) (l0 : Fin n) (h : ∀ l, S l ≤ S l0) :
    RowSt.step (fun l => (S l : EReal)) same diag RowSt.init
      = ⟨(S l0 : EReal),
         ((∑ l : Fin n, (if same l then Real.exp (S l - S l0) else 0) : ℝ) : EReal),
         ((∑ l : Fin n, Real.exp (S l - S l0) : ℝ) : EReal),
         ((∑ l : Fin n, (if diag l then S l else 0) : ℝ) : EReal)⟩ := by
  unfold RowSt.step RowSt.init
  simp only [emax_coe S l0 h, max_bot_left, EReal.bot_sub, Ideal.exp_bot, zero_mul, zero_add, exp_sub_coe, ite_coe,
    ← coe_sum]

/-- Among finitely many reals, over a nonempty index, one bounds the others. -/
private theorem exists_chunk_max (S : Fin 512 → ℝ) : ∃ l0, ∀ l, S l ≤ S l0 := by
  obtain ⟨l0, -, h⟩ := Finset.exists_max_image Finset.univ S ⟨0, Finset.mem_univ _⟩
  exact ⟨l0, fun l => h l (Finset.mem_univ l)⟩

/-- The state after k ≥ 1 chunks: the running maximum is the real maximum M of the columns seen, and the three sums
    are the real sums over those columns, the exponentials taken against M. -/
private def Inv (s : Fin 8192 → ℝ) (same diag : Fin 8192 → Bool) (k : ℕ) (r : RowSt) : Prop :=
  ∃ M : ℝ, (∀ j ∈ cols k, s j ≤ M) ∧ (∃ j ∈ cols k, s j = M) ∧
    r = ⟨(M : EReal), (sumP s same (cols k) M : EReal), (sumT s (cols k) M : EReal), (sumD s diag (cols k) : EReal)⟩

private theorem rowAt_succ (s : Fin 8192 → EReal) (same diag : Fin 8192 → Bool) {k : ℕ} (h : k < 16) :
    rowAt s same diag (k + 1)
      = (rowAt s same diag k).step (fun l : Fin 512 => s (chunkIdx ⟨k, h⟩ l)) (fun l => same (chunkIdx ⟨k, h⟩ l))
          (fun l => diag (chunkIdx ⟨k, h⟩ l)) := by
  rw [rowAt, dif_pos h]

/-- After the first chunk. -/
private theorem inv_one (s : Fin 8192 → ℝ) (same diag : Fin 8192 → Bool) :
    Inv s same diag (0 + 1) (rowAt (fun j => (s j : EReal)) same diag (0 + 1)) := by
  have h0 : (0 : ℕ) < 16 := by norm_num
  obtain ⟨l0, hl0⟩ := exists_chunk_max (fun l => s (chunkIdx ⟨0, h0⟩ l))
  refine ⟨s (chunkIdx ⟨0, h0⟩ l0), ?_, ?_, ?_⟩
  · intro j hj
    rcases (mem_cols_succ h0).1 hj with h1 | ⟨l, rfl⟩
    · rw [cols_zero] at h1; exact absurd h1 (Finset.notMem_empty j)
    · exact hl0 l
  · exact ⟨chunkIdx ⟨0, h0⟩ l0, (mem_cols_succ h0).2 (Or.inr ⟨l0, rfl⟩), rfl⟩
  · rw [rowAt_succ _ _ _ h0]
    have e0 : rowAt (fun j => (s j : EReal)) same diag 0 = RowSt.init := rfl
    rw [e0]
    refine (step_init (fun l => s (chunkIdx ⟨0, h0⟩ l)) _ _ l0 hl0).trans ?_
    unfold sumP sumT sumD
    rw [sum_cols_succ _ h0, sum_cols_succ _ h0, sum_cols_succ _ h0, cols_zero]
    simp only [Finset.sum_empty, zero_add]

/-- One more chunk. -/
private theorem inv_succ (s : Fin 8192 → ℝ) (same diag : Fin 8192 → Bool) {k : ℕ} (h : k < 16) {r : RowSt}
    (hr : Inv s same diag k r) :
    Inv s same diag (k + 1)
      (r.step (fun l => ((s (chunkIdx ⟨k, h⟩ l) : ℝ) : EReal)) (fun l => same (chunkIdx ⟨k, h⟩ l))
        (fun l => diag (chunkIdx ⟨k, h⟩ l))) := by
  obtain ⟨M, hle, ⟨j0, hj0, hj0M⟩, rfl⟩ := hr
  obtain ⟨l0, hl0⟩ := exists_chunk_max (fun l => s (chunkIdx ⟨k, h⟩ l))
  refine ⟨max M (s (chunkIdx ⟨k, h⟩ l0)), ?_, ?_, ?_⟩
  · intro j hj
    rcases (mem_cols_succ h).1 hj with h1 | ⟨l, rfl⟩
    · exact le_trans (hle j h1) (le_max_left _ _)
    · exact le_trans (hl0 l) (le_max_right _ _)
  · rcases le_total M (s (chunkIdx ⟨k, h⟩ l0)) with hc | hc
    · exact ⟨chunkIdx ⟨k, h⟩ l0, (mem_cols_succ h).2 (Or.inr ⟨l0, rfl⟩), (max_eq_right hc).symm⟩
    · exact ⟨j0, (mem_cols_succ h).2 (Or.inl hj0), by rw [max_eq_left hc]; exact hj0M⟩
  · refine (step_coe (fun l => s (chunkIdx ⟨k, h⟩ l)) _ _ l0 hl0 _ _ _ _).trans ?_
    rw [rescale_P, rescale_T]
    unfold sumP sumT sumD
    rw [sum_cols_succ _ h, sum_cols_succ _ h, sum_cols_succ _ h]

/-- After every chunk from the first on. -/
private theorem inv_rowAt (s : Fin 8192 → ℝ) (same diag : Fin 8192 → Bool) :
    ∀ k : ℕ, k < 16 → Inv s same diag (k + 1) (rowAt (fun j => (s j : EReal)) same diag (k + 1))
  | 0, _ => inv_one s same diag
  | k + 1, h => by
    have hk : k < 16 := by omega
    have ih := inv_rowAt s same diag k hk
    rw [rowAt_succ _ _ _ h]
    exact inv_succ s same diag h ih

/-! ### The end of the walk against the reference's row -/

/-- Leaving the diagonal column out of the same-label sum takes off that column's term. -/
private theorem sum_pos (e : Fin 8192 → ℝ) (same : Fin 8192 → Bool) (i : Fin 8192) (hi : same i = true) :
    ∑ j, e j * (if (same j && !decide (i = j)) = true then (1 : ℝ) else 0)
      = (∑ j, if same j then e j else 0) - e i := by
  have h1 : e i = ∑ j, if i = j then e j else 0 := by rw [Finset.sum_ite_eq]; simp
  rw [eq_sub_iff_add_eq, h1, ← Finset.sum_add_distrib]
  refine Finset.sum_congr rfl (fun j _ => ?_)
  by_cases hij : i = j
  · subst hij; simp [hi]
  · cases hs : same j <;> simp [hij]

/-- The other-label sum (the diagonal column has the row's own label) is the whole sum less the same-label sum. -/
private theorem sum_neg (e : Fin 8192 → ℝ) (same : Fin 8192 → Bool) (i : Fin 8192) (hi : same i = true) :
    ∑ j, e j * (if (!same j && !decide (i = j)) = true then (1 : ℝ) else 0)
      = (∑ j, e j) - ∑ j, if same j then e j else 0 := by
  rw [← Finset.sum_sub_distrib]
  refine Finset.sum_congr rfl (fun j _ => ?_)
  by_cases hij : i = j
  · subst hij; simp [hi]
  · cases hs : same j <;> simp [hij]

/-- For real scores the kernel's chunked, rescaled running sums give the reference's row value. -/
theorem kerRow_eq_refRow {α : Type} [DecidableEq α] (s : Fin 8192 → ℝ) (lab : Fin 8192 → α) (i : Fin 8192) :
    kerRow (fun j => (s j : EReal)) (fun j => decide (lab i = lab j)) (fun j => decide (i = j))
      = refRow (fun j => (s j : EReal)) (fun j => decide (lab i = lab j) && !decide (i = j))
          (fun j => !decide (lab i = lab j) && !decide (i = j)) := by
  obtain ⟨M, hle, ⟨j0, -, hj0⟩, hr⟩ :=
    inv_rowAt s (fun j => decide (lab i = lab j)) (fun j => decide (i = j)) 15 (by norm_num)
  have hc : cols (15 + 1) = Finset.univ := cols_all
  rw [hc] at hle hr
  have hr' : rowAt (fun j => (s j : EReal)) (fun j => decide (lab i = lab j)) (fun j => decide (i = j)) 16 = _ := hr
  have hmax : emax (fun j => (s j : EReal)) = (M : EReal) := by
    rw [← hj0]
    exact emax_coe s j0 (fun l => by rw [hj0]; exact hle l (Finset.mem_univ l))
  have hD : sumD s (fun j => decide (i = j)) Finset.univ = s i := by
    unfold sumD; simp
  have hpos := sum_pos (fun j => Real.exp (s j - M)) (fun j => decide (lab i = lab j)) i (by simp)
  have hneg := sum_neg (fun j => Real.exp (s j - M)) (fun j => decide (lab i = lab j)) i (by simp)
  unfold kerRow refRow RowSt.out
  rw [hr', hmax]
  simp only [exp_sub_coe, Ideal.exp_coe, b2e, ← EReal.coe_mul, ← coe_sum, one_mul, zero_add, ← EReal.coe_sub, hD]
  rw [hpos, hneg]
  rfl

end Cert.GC

end
-- ==== Proof.GC.RefVal.lean ====
import proofs.«408867_j74234214744332_3_alg».proof.Proof.Gen.ReferenceIdeal.Read
import proofs.«408867_j74234214744332_3_alg».proof.Proof.GC.Spec
import Idealize.ShloMosaic.Lib.ValueIdx
import Idealize.ShloMosaic.Lib.ValueLayout
import Idealize.ShloMosaic.Lib.Pipeline.Value
import Idealize.ShloMosaic.PureOps.Ideal.Laws

noncomputable section

namespace Cert.GC.Ref

open Cert.ReferenceIdeal Cert.ReferenceIdeal.Gen Cert.ReferenceIdeal.Read Cert.GC Idealize.ShloMosaic Idealize.ShloMosaic.ValueIdx

/-- The feature array by row and column. -/
def feat (x0 : (⟨S8192x128, .f32⟩ : BufTy).Contents (Elt Ideal)) : Fin 8192 → Fin 128 → EReal := fun r k => x0 (ix2 r k)

/-- The label of a row. -/
def labOf (x1 : (⟨S8192, .i32⟩ : BufTy).Contents (Elt Ideal)) : Fin 8192 → BitVec 32 := fun r => x1 (ix1 r)

/-! ## The literals -/

/-- The divisor's word is the float nearest 0.2. -/
private theorem ofBits_dT : Ideal.ofBits .f32 0x3E4CCCCD#32 = ((dT : ℝ) : EReal) := by
  unfold dT
  simp [Ideal.ofBits, Ideal.ieee, -EReal.coe_mul]
  norm_num

private theorem ofBits_one : Ideal.ofBits .f32 0x3F800000#32 = 1 := by
  simp [Ideal.ofBits, Ideal.ieee, -EReal.coe_mul]
  norm_num

private theorem ofBits_zero : Ideal.ofBits .f32 0x00000000#32 = 0 := by
  simp [Ideal.ofBits, Ideal.ieee]

private theorem ofBits_bot : Ideal.ofBits .f32 0xFF800000#32 = ⊥ := by
  simp [Ideal.ofBits, Ideal.ieee]

private theorem ofBits_8192 : Ideal.ofBits .f32 0x46000000#32 = ((8192 : ℝ) : EReal) := by
  simp [Ideal.ofBits, Ideal.ieee, -EReal.coe_mul]
  norm_num

/-! ## The masks -/

/-- A one-bit word read as a float is the Boolean's 0 or 1. -/
private theorem bit_toReal (c : Bool) : (((BitVec.ofBool c).toNat : ℝ) : EReal) = b2e c := by
  cases c <;> simp [b2e]

/-- "Same label and off the diagonal", on the words. -/
private theorem word_pos (a d : Bool) : IntOp.andi (BitVec.ofBool a) (~~~ BitVec.ofBool d) = BitVec.ofBool (a && !d) := by
  cases a <;> cases d <;> rfl

/-- "Another label and off the diagonal", on the words. -/
private theorem word_neg (a d : Bool) : IntOp.andi (~~~ BitVec.ofBool a) (~~~ BitVec.ofBool d) = BitVec.ofBool (!a && !d) := by
  cases a <;> cases d <;> rfl

/-- The integer comparison for equality is the decision of equality, as a word. -/
private theorem cmpi_eq (x y : BitVec 32) : IntOp.cmpi .eq x y = BitVec.ofBool (decide (x = y)) := by
  show BitVec.ofBool (x == y) = _
  rw [beq_eq_decide]

/-- Row and column numbers below 8192 are equal as 32-bit words exactly when they are equal. -/
private theorem iota_eq (r j : Fin 8192) :
    decide (IntOp.addi (BitVec.ofNat 32 r.val) 0#32 = BitVec.ofNat 32 j.val) = decide (r = j) := by
  have hr : r.val < 2 ^ 32 := lt_trans r.isLt (by norm_num)
  have hj : j.val < 2 ^ 32 := lt_trans j.isLt (by norm_num)
  refine decide_eq_decide.mpr ⟨fun h => ?_, fun h => by rw [h]; exact BitVec.add_zero _⟩
  have h' : BitVec.ofNat 32 r.val = BitVec.ofNat 32 j.val := (BitVec.add_zero _).symm.trans h
  have := congrArg BitVec.toNat h'
  rw [BitVec.toNat_ofNat, BitVec.toNat_ofNat, Nat.mod_eq_of_lt hr, Nat.mod_eq_of_lt hj] at this
  exact Fin.ext this

/-- The label comparison %4 at (r, j). -/
private theorem v4_at (x1 : (⟨S8192, .i32⟩ : BufTy).Contents (Elt Ideal)) (r j : Fin 8192) :
    val_main_v4 (F := Ideal) x1 (ix2 r j) = BitVec.ofBool (decide (labOf x1 r = labOf x1 j)) := by
  rw [val_main_v4_apply, val_main_v2_apply, val_main_v0_apply, val_main_v3_apply, val_main_v1_apply, val_main_v0_apply, cmpi_eq]
  have e1 : idx_main_v0 (idx_main_v2 (ix2 r j)) = ix1 r :=
    funext fun a => Fin.ext (by match a with | ⟨0, _⟩ => show r.val * 1 + 0 = r.val; omega)
  have e2 : idx_main_v0 (idx_main_v1 (idx_main_v3 (ix2 r j))) = ix1 j :=
    funext fun a => Fin.ext (by match a with | ⟨0, _⟩ => show j.val * 1 + 0 = j.val; omega)
  rw [e1, e2]
  rfl

/-- The diagonal test %9 at (r, j). -/
private theorem v9_at (r j : Fin 8192) :
    val_main_v9 (F := Ideal) (ix2 r j) = BitVec.ofBool (decide (r = j)) := by
  rw [val_main_v9_apply, val_main_v8_apply, val_main_v5_apply, val_main_v7_apply, val_main_c_apply, val_main_v6_apply, cmpi_eq]
  exact congrArg BitVec.ofBool (iota_eq r j)

/-- The positive mask %12 at (r, j). -/
private theorem v12_at (x1 : (⟨S8192, .i32⟩ : BufTy).Contents (Elt Ideal)) (r j : Fin 8192) :
    val_main_v12 (F := Ideal) x1 (ix2 r j) = b2e (decide (labOf x1 r = labOf x1 j) && !decide (r = j)) := by
  rw [val_main_v12_apply, val_main_v11_apply, val_main_v10_apply, v4_at, v9_at, word_pos]
  exact bit_toReal _

/-- The negative mask %15 at (r, j). -/
private theorem v15_at (x1 : (⟨S8192, .i32⟩ : BufTy).Contents (Elt Ideal)) (r j : Fin 8192) :
    val_main_v15 (F := Ideal) x1 (ix2 r j) = b2e (!decide (labOf x1 r = labOf x1 j) && !decide (r = j)) := by
  rw [val_main_v15_apply, val_main_v14_apply, val_main_v13_apply, val_main_v10_apply, v4_at, v9_at, word_neg]
  exact bit_toReal _

/-! ## The scores and the row maximum -/

/-- The similarity %19 at (r, j) is the reference's score of rows r and j. -/
private theorem v19_at (x0 : (⟨S8192x128, .f32⟩ : BufTy).Contents (Elt Ideal)) (r j : Fin 8192) :
    val_main_v19 (F := Ideal) x0 (ix2 r j) = scoreR (feat x0) r j := by
  rw [val_main_v19_apply, val_main_v17_apply, val_main_v18_apply, val_main_cst_apply, Ideal.hostDivf_def, Ideal.ofBits_def, ofBits_dT]
  unfold scoreR feat
  refine congrArg (fun t => Ideal.div t ((dT : ℝ) : EReal)) (Finset.sum_congr rfl fun k _ => ?_)
  rw [val_main_v16_apply]
  have el : lidx_main_v17 (ix2 r j) k = ix2 r k :=
    funext fun a => Fin.ext (by match a with | ⟨0, _⟩ => rfl | ⟨1, _⟩ => rfl)
  have er : idx_main_v16 (ridx_main_v17 (ix2 r j) k) = ix2 j k :=
    funext fun a => Fin.ext (by match a with | ⟨0, _⟩ => rfl | ⟨1, _⟩ => rfl)
  rw [el, er]

/-- Row r of the square index set with column k put back on the reduced axis is (r, k). -/
private theorem lift_row (h : S8192x8192.Reduces [1] S8192) (r : Fin 8192) (k : Fin (S8192x8192.size 1)) :
    h.lift (ix1 r) k = ix2 r (⟨k.val, k.isLt⟩ : Fin 8192) :=
  funext fun a => Fin.ext (by match a with | ⟨0, _⟩ => rfl | ⟨1, _⟩ => rfl)

/-- The row maximum %20 at r: the maximum, from −∞, of the row's scores. -/
private theorem v20_at (x0 : (⟨S8192x128, .f32⟩ : BufTy).Contents (Elt Ideal)) (r : Fin 8192) :
    val_main_v20 (F := Ideal) x0 (ix1 r) = emax (scoreR (feat x0) r) := by
  have h : S8192x8192.Reduces [1] S8192 := by decide
  unfold val_main_v20
  rw [Host.reduce_eq_fold_single FloatOps.maximumf _ _ reducesTo_S8192x8192_S8192_d1 h h_S_, val_main_cst_0_apply, Ideal.ofBits_def, ofBits_bot]
  have hf : (val_main_v19 (F := Ideal) x0 ∘ h.lift (ix1 r)) = fun k : Fin 8192 => scoreR (feat x0) r k :=
    funext fun k => by
      show val_main_v19 (F := Ideal) x0 (h.lift (ix1 r) k) = _
      rw [lift_row h r k, v19_at]
      rfl
  rw [hf]
  rfl

/-! ## The row value and the result -/

/-- The reference's per-row value (its `%31`) at row `r` is `refRow` of the row's scores, with the positive columns those
    of the row's label other than the row itself and the negative columns those of another label. -/
theorem ref_row (x0 : (⟨S8192x128, .f32⟩ : BufTy).Contents (Elt Ideal)) (x1 : (⟨S8192, .i32⟩ : BufTy).Contents (Elt Ideal)) (r : Fin 8192) :
    val_main_v31 (F := Ideal) x0 x1 (ix1 r)
      = refRow (scoreR (feat x0) r) (fun j => decide (labOf x1 r = labOf x1 j) && !decide (r = j))
          (fun j => !decide (labOf x1 r = labOf x1 j) && !decide (r = j)) := by
  -- the indices the two row sums and the broadcast maximum read
  have e26 : ∀ k : Fin 8192, idx_main_v26 (ix1 r) k = ix2 r k := fun k =>
    funext fun a => Fin.ext (by match a with | ⟨0, _⟩ => rfl | ⟨1, _⟩ => rfl)
  have e30 : ∀ k : Fin 8192, idx_main_v30 (ix1 r) k = ix2 r k := fun k =>
    funext fun a => Fin.ext (by match a with | ⟨0, _⟩ => rfl | ⟨1, _⟩ => rfl)
  have e22 : ∀ k : Fin 8192, idx_main_v21 (idx_main_v22 (ix2 r k)) = ix1 r := fun k =>
    funext fun a => Fin.ext (by match a with | ⟨0, _⟩ => rfl)
  -- the exponential %24 at (r, k)
  have hexp : ∀ k : Fin 8192, val_main_v24 (F := Ideal) x0 (ix2 r k)
      = Ideal.exp (scoreR (feat x0) r k - emax (scoreR (feat x0) r)) := fun k => by
    rw [val_main_v24_apply, val_main_v23_apply, val_main_v22_apply, val_main_v21_apply, e22, v19_at, v20_at,
      Ideal.hostUnary_exp_def, Ideal.subf_def]
  rw [val_main_v31_apply, val_main_v28_apply, val_main_v27_apply, val_main_cst_2_apply, val_main_v26_apply,
    val_main_v30_apply, val_main_cst_1_apply, val_main_cst_3_apply]
  simp only [e26, e30, val_main_v25_apply, val_main_v29_apply, hexp, v12_at, v15_at, Ideal.subf_def, Ideal.mulf_def,
    Ideal.ofBits_def, ofBits_one, ofBits_zero]
  rfl

/-- The reference's result is minus the mean of its per-row values. -/
theorem ref_value (x0 : (⟨S8192x128, .f32⟩ : BufTy).Contents (Elt Ideal)) (x1 : (⟨S8192, .i32⟩ : BufTy).Contents (Elt Ideal)) (i : S_.Idx) :
    val_main_v34 (F := Ideal) x0 x1 i = negMean (fun r => val_main_v31 (F := Ideal) x0 x1 (ix1 r)) := by
  rw [val_main_v34_apply, val_main_v33_apply, val_main_v32_apply, val_main_cst_4_apply, val_main_cst_5_apply,
    Ideal.hostNegf_def, Ideal.negf_def, Ideal.hostDivf_def, Ideal.ofBits_def, Ideal.ofBits_def, ofBits_zero, ofBits_8192]
  -- the sum over the rank-1 index set is the sum over its one coordinate
  have hs : ∑ j : S8192.Idx, val_main_v31 (F := Ideal) x0 x1 j = ∑ r : Fin 8192, val_main_v31 (F := Ideal) x0 x1 (ix1 r) :=
    (Equiv.sum_comp (⟨ix1, fun j => j 0, fun r => rfl, fun j => (eq_ix1 j).symm⟩ : Fin 8192 ≃ S8192.Idx) _).symm
  rw [hs]
  rfl

end Cert.GC.Ref

end
-- ==== Proof.KI.Glue.lean ====
import proofs.«408867_j74234214744332_3_alg».proof.Proof.KI.IdealOut
import proofs.«408867_j74234214744332_3_alg».proof.Proof.GC.Math
import proofs.«408867_j74234214744332_3_alg».proof.Proof.GC.RefVal

noncomputable section

namespace Cert.KernelIdeal.GC

open Cert.KernelIdeal Cert.KernelIdeal.Gen Cert.GC Idealize.ShloMosaic Idealize.ShloMosaic.ValueIdx

/-- Row `p` of the block at grid coordinates `i` is row 1024·i + p of the whole array. -/
def gRow (i : grid0.Coords) (p : Fin 1024) : Fin 8192 :=
  ⟨1024 * (i 0).val + p.val, by have h0 : (i 0).val < 8 := (i 0).isLt; have := p.isLt; omega⟩

/-- THE BRIDGE, at one row. With the four operand blocks read off the argument arrays — the query block rows
    1024·i … of the features, the resident array all of the features, the block's labels and the label row the labels —
    and the features real numbers, what the body stores for block row `p` is the reference's row value of row 1024·i + p:
    the kernel's row recurrence on the kernel's scores (outPay_ideal), which for real scores is the reference's row value
    (kerRow_eq_refRow), on scores that for real features are the reference's (scoreK_eq_scoreR). -/
theorem bridge_row (a0 : FVec Ideal Cert.ReferenceIdeal.S8192x128 .f32) (a1 : IVec Cert.ReferenceIdeal.S8192 32)
    (hfin : ∀ j, ∃ r : ℝ, a0 j = (r : EReal))
    (i : grid0.Coords) (x1 : Vec Ideal S1024x128 .bf16) (x2 : Vec Ideal S8192x128 .bf16) (x3 : Vec Ideal S1024x1 .i32)
    (x4 : Vec Ideal S1x8192 .i32)
    (h1 : ∀ (p : Fin 1024) (k : Fin 128), x1 (ix2 p k) = a0 (ix2 (gRow i p) k))
    (h2 : ∀ (j : Fin 8192) (k : Fin 128), x2 (ix2 j k) = a0 (ix2 j k))
    (h3 : ∀ p : Fin 1024, x3 (ix2 p 0) = a1 (ix1 (gRow i p)))
    (h4 : ∀ j : Fin 8192, x4 (ix2 0 j) = a1 (ix1 j))
    (p : Fin 1024) :
    outPay (F := Ideal) i x1 x2 x3 x4 (ix2 p 0)
      = Cert.ReferenceIdeal.Read.val_main_v31 (F := Ideal) a0 a1 (ix1 (gRow i p)) := by
  -- the features as a real matrix
  choose x hx using hfin
  have hfeat : Ref.feat a0 = fun a b => ((x (ix2 a b) : ℝ) : EReal) := funext fun a => funext fun b => hx (ix2 a b)
  -- the kernel's scores of block row p are the kernel-form scores of row 1024·i + p of the features
  have hK : scAt x1 x2 p = scoreK (Ref.feat a0) (gRow i p) := funext fun j => by
    unfold scAt scoreK Ref.feat
    exact Finset.sum_congr rfl fun k _ => by rw [h1, h2]
  -- for real features these are the reference-form scores, and each is a real
  choose s hs using fun j => scoreR_coe (fun a b => x (ix2 a b)) (gRow i p) j
  have hR : scoreR (Ref.feat a0) (gRow i p) = fun j => ((s j : ℝ) : EReal) := by
    rw [hfeat]; exact funext hs
  have hS : scAt x1 x2 p = fun j => ((s j : ℝ) : EReal) := by
    rw [hK, ← hR, hfeat]
    exact funext fun j => scoreK_eq_scoreR (fun a b => x (ix2 a b)) (gRow i p) j
  -- the two masks: same label as row 1024·i + p; the column is row 1024·i + p itself
  have hsame : sameAt x3 x4 p = fun j => decide (Ref.labOf a1 (gRow i p) = Ref.labOf a1 j) := funext fun j => by
    unfold sameAt Ref.labOf
    rw [h3, h4]
  have hdiag : diagAt i p = fun j => decide (gRow i p = j) := funext fun j => by
    unfold diagAt
    exact decide_eq_decide.mpr ⟨fun h => Fin.ext h, fun h => congrArg Fin.val h⟩
  rw [outPay_ideal, hS, hsame, hdiag, kerRow_eq_refRow s (Ref.labOf a1) (gRow i p), Ref.ref_row a0 a1 (gRow i p), hR]

end Cert.KernelIdeal.GC

end
-- ==== Proof.GC.Fin.lean ====
import proofs.«408867_j74234214744332_3_alg».proof.Defs
import proofs.«408867_j74234214744332_3_alg».proof.Proof.Gen.Pre_finite_inputs
import Idealize.ShloMosaic.Lib.ValueIdx
import Idealize.ShloMosaic.Lib.ReduceAll

noncomputable section

namespace Cert.GC.Fin

open Idealize.ShloMosaic Idealize.ShloMosaic.ValueIdx

/-- The result of the all-reduce has one index. -/
private instance : Subsingleton Cert.Pre_finite_inputs.S_.Idx := ⟨fun a b => funext fun d => d.elim0⟩

/-- The f32 pattern of +∞ is the extended reals' top. -/
private theorem ofBits_inf : Ideal.ofBits .f32 0x7F800000#32 = (⊤ : EReal) := by
  simp [Ideal.ofBits, Ideal.ieee]

/-- An extended real whose absolute value, max x (−x), is below +∞ is a real. -/
private theorem real_of_abs_lt_top (x : EReal) (hx : max x (-x) < ⊤) : ∃ r : ℝ, x = (r : EReal) := by
  induction x using EReal.rec with
  | bot => simp at hx
  | coe r => exact ⟨r, rfl⟩
  | top => simp at hx

/-- Under the precondition every entry of the feature array is a real number. -/
theorem finite_of_pre (x0 : FVec Ideal Cert.Pre_finite_inputs.S8192x128 .f32) (x1 : IVec Cert.Pre_finite_inputs.S8192 32)
    (h : Cert.Pre_finite_inputs.fn (F := Ideal) x0 x1 = (fun _ => 1#1)) :
    ∀ j, ∃ r : ℝ, x0 j = (r : EReal) := by
  intro j
  -- the precondition's one result word is 1: the conjunction over all entries of |x| < +∞ came out true
  have h0 := congrFun h ValueIdx.ix0
  dsimp only [Cert.Pre_finite_inputs.fn] at h0
  -- so the comparison is true at every entry, in particular at j
  have hj := Host.reduce_andi_all _ _ _ _ _ h0 j
  -- at the extended reals the comparison is the decision of max x (−x) < the value of the +∞ pattern
  have hb : BitVec.ofBool (decide (max (x0 j) (-(x0 j)) < Ideal.ofBits .f32 0x7F800000#32)) = 1#1 := hj
  have hlt : max (x0 j) (-(x0 j)) < Ideal.ofBits .f32 0x7F800000#32 := by
    by_contra hn
    rw [decide_eq_false hn] at hb
    exact absurd hb (by decide)
  rw [ofBits_inf] at hlt
  exact real_of_abs_lt_top _ hlt

end Cert.GC.Fin

end
-- ==== Proof.KI.ValueIdeal.lean ====
import proofs.«408867_j74234214744332_3_alg».proof.Proof.KI.Final
import proofs.«408867_j74234214744332_3_alg».proof.Proof.KI.Glue
import proofs.«408867_j74234214744332_3_alg».proof.Proof.KI.Tail
import proofs.«408867_j74234214744332_3_alg».proof.Proof.GC.Fin
import proofs.«408867_j74234214744332_3_alg».proof.Defs

noncomputable section

namespace Cert.KernelIdeal.GC

open Cert.KernelIdeal Cert.KernelIdeal.Gen Cert.GC Idealize.ShloMosaic Idealize.ShloMosaic.TcCoe Idealize.ShloMosaic.ValueIdx
open Idealize.SL.Sem

/-- The one grid coordinate of point `t` is `t`. -/
private theorem coord_eq : ∀ t : Fin cfg0.N, ((grid0.coords t) 0).val = t.val :=
  (by decide +kernel : ∀ t : Fin grid0.N, ((grid0.coords t) 0).val = t.val)

/-- Row `p` of the block at point `t`, by grid coordinates or by point number. -/
private theorem gRow_coords (t : Fin cfg0.N) (p : Fin 1024) : gRow (grid0.coords t) p = tRow t p :=
  Fin.ext (by show 1024 * ((grid0.coords t) 0).val + p.val = 1024 * t.val + p.val; rw [coord_eq t])

/-- Every row of the whole array is a row of one point's block. -/
private theorem exists_tRow (r : Fin 8192) : ∃ (t : Fin cfg0.N) (p : Fin 1024), r = tRow t p :=
  ⟨⟨r.val / 1024, Nat.lt_of_lt_of_eq (by have := r.isLt; omega) N_0.symm⟩, ⟨r.val % 1024, Nat.mod_lt _ (by decide)⟩,
    Fin.ext (by show r.val = 1024 * (r.val / 1024) + r.val % 1024; omega)⟩

/-- The labels as a column: entry (r, 0) is label r. -/
private theorem labCol_apply {α : Type} (v : S8192.Idx → α) (r : Fin 8192) :
    shapeCast S8192x1 v shapeCasts_S8192_S8192x1 (ix2 r 0) = v (ix1 r) := by
  refine shapeCast_apply v _ (ix2 r 0) (ix1 r) ?_
  rw [Shape.rowMajor_val_one, Shape.rowMajor_val_two]
  show r.val = r.val * 1 + 0
  omega

/-- The labels as a row: entry (0, j) is label j. -/
private theorem labRow_apply {α : Type} (v : S8192.Idx → α) (j : Fin 8192) :
    shapeCast S1x8192 v shapeCasts_S8192_S1x8192 (ix2 0 j) = v (ix1 j) := by
  refine shapeCast_apply v _ (ix2 0 j) (ix1 j) ?_
  rw [Shape.rowMajor_val_one, Shape.rowMajor_val_two]
  show j.val = 0 * 8192 + j.val
  omega

/-- THE VALUE at the ideal instance: under the precondition (the features real numbers), what the five host operations
    after the kernel make of the kernel's result array is the reference's result on the same arguments — row by row the
    kernel's stored value is the reference's per-row value (bridge_row, over the blocks read off the argument arrays), and
    both programs end with minus the mean of the 8192 row values. -/
theorem result_ideal (m : (ℓ : Loc nD τ sig) → Buf (Elt Ideal) ℓ) (c : Dev nD) (hpre : Cert.Pre_KernelIdeal m) (i : S_.Idx) :
    tailFn (F := Ideal) ((dats m 0 c).arrAt 4 cfg0.N) i
      = Cert.ReferenceIdeal.Read.val_main_v34 (F := Ideal) (m ((c : Thread nD τ).loc main_arg0)) (m ((c : Thread nD τ).loc main_arg1)) i := by
  rw [tailFn_ideal, Ref.ref_value]
  refine congrArg negMean (funext fun r => ?_)
  obtain ⟨t, p, rfl⟩ := exists_tRow r
  refine (arrAt_out m c t p).trans ?_
  rw [← gRow_coords t p]
  refine bridge_row _ _ (Cert.GC.Fin.finite_of_pre _ _ (hpre c)) (grid0.coords t) _ _ _ _ ?_ ?_ ?_ ?_ p
  · -- the query block is rows 1024·t … of the features (the format change is the identity)
    intro q k
    rw [gRow_coords, iblk0_apply, VA_v0]
    rfl
  · -- the resident array is all of the features
    intro j k
    rw [iblk1_apply, VA_v0]
    rfl
  · -- the block's labels
    intro q
    rw [gRow_coords, iblk2_apply, VA_v1, labCol_apply]
  · -- the label row
    intro j
    rw [iblk3_apply, VA_v2, labRow_apply]

end Cert.KernelIdeal.GC

end
-- ==== Proof.lean ====
/-
  The kernel computes, per row i of an 8192 × 128 feature array x with integer labels, the contrastive sum
      Σ_{j ≠ i, label j = label i} e_ij  −  Σ_{label j ≠ label i} e_ij,    e_ij = exp (s_ij − max_j s_ij),    s_ij = (x_i · x_j) / T,
  and returns minus the mean of the 8192 row values. The reference forms the 8192 × 8192 score matrix on the host, divides
  it by T (the f32 nearest 0.2), takes each row's maximum, exponentiates, multiplies by the two 0/1 masks and sums. The
  kernel never forms the matrix: at each of 8 grid points it scales its 1024-row query block by the reciprocal 1/T — the
  literal 5.0, NAMED the exact reciprocal of the reference's divisor — and walks the columns in 16 chunks of 512, keeping
  per row a running maximum and sums of exponentials rescaled whenever the maximum moves, and the diagonal score, which it
  removes from the positive sum at the end.

  Equal at the ideal values: the scaled dot product is the quotient (the named constant is the divisor's reciprocal, the
  features are real numbers by the precondition); a rescaled running sum of exp (s − m) is the sum of exp (s − M) against
  the final maximum M because exp (m − M) · exp (s − m) = exp (s − M) on the reals; the same-label sum less the diagonal
  term is the sum over the positive mask, the total less the same-label sum the sum over the negative mask; both programs
  end with the same sum, quotient by 8192 and negation.

  The frames (both printed kernels, at any float instance): the kernel function run once on whole memrefs, its loop by the
  invariant of its trips; the pipeline's proof data — each operand's buffer left at its block, the result's at the row
  values, the feature array held in two halves by the two windows on it —; @main as three segments.
-/
import proofs.«408867_j74234214744332_3_alg».proof.Defs
import proofs.«408867_j74234214744332_3_alg».proof.Proof.Gen.Kernel
import proofs.«408867_j74234214744332_3_alg».proof.Proof.Gen.KernelIdeal
import proofs.«408867_j74234214744332_3_alg».proof.Proof.Gen.ReferenceIdeal
import proofs.«408867_j74234214744332_3_alg».proof.Proof.Gen.Pre_finite_inputs
import proofs.«408867_j74234214744332_3_alg».proof.Proof.Gen.ReferenceIdeal.Run
import proofs.«408867_j74234214744332_3_alg».proof.Proof.Gen.ReferenceIdeal.Read
import proofs.«408867_j74234214744332_3_alg».proof.Proof.K.Launch
import proofs.«408867_j74234214744332_3_alg».proof.Proof.K.TailVal
import proofs.«408867_j74234214744332_3_alg».proof.Proof.KI.Launch
import proofs.«408867_j74234214744332_3_alg».proof.Proof.KI.TailVal
import proofs.«408867_j74234214744332_3_alg».proof.Proof.KI.TailV6
import proofs.«408867_j74234214744332_3_alg».proof.Proof.KI.ValueIdeal
import Idealize.ShloMosaic.Adequacy
import Idealize.ShloMosaic.Init

noncomputable section

namespace Cert.Proof

open Idealize.ShloMosaic Idealize.ShloMosaic.TcCoe Idealize.SL.Sem

/-- The word-level kernel runs and leaves its two arguments as they were. -/
theorem frame_k : Cert.frame_Kernel := fun m ρ _ =>
  (θ_run Cert.Kernel.defs _ _).mono (fun r h c =>
      ⟨(h c _ (Cert.Kernel.GC.mem_uc Cert.Kernel.main_arg0 (by decide))).trans (Cert.Kernel.GC.V₃_arg0 m c),
       (h c _ (Cert.Kernel.GC.mem_uc Cert.Kernel.main_arg1 (by decide))).trans (Cert.Kernel.GC.V₃_arg1 m c)⟩)
    (Cert.Kernel.GC.run_main (F := Bits) m ρ)

/-- The idealized kernel likewise. -/
theorem frame_ki : Cert.frame_KernelIdeal := fun m ρ _ =>
  (θ_run Cert.KernelIdeal.defs _ _).mono (fun r h c =>
      ⟨(h c _ (Cert.KernelIdeal.GC.mem_uc Cert.KernelIdeal.main_arg0 (by decide))).trans (Cert.KernelIdeal.GC.V₃_arg0 m c),
       (h c _ (Cert.KernelIdeal.GC.mem_uc Cert.KernelIdeal.main_arg1 (by decide))).trans (Cert.KernelIdeal.GC.V₃_arg1 m c)⟩)
    (Cert.KernelIdeal.GC.run_main (F := Ideal) m ρ)

/-- The reference, a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the literal 5.0 read as the reciprocal of the reference's divisor, which the
    table gives it. -/
theorem preserves : Cert.preserves_Kernel_KernelIdeal :=
  IdealRules.named_const.statement Cert.KernelIdeal.κ "inv_t" .f32 0x40A00000#32 ((67108864 / 13421773 : ℝ) : EReal) rfl

/-- At the ideal values, from memories agreeing on the arguments, the kernel's program and the reference end with the same
    number: the reference's own result term, which the kernel's result buffer holds by the row-by-row bridge. -/
theorem algebraic : Cert.algebraic_KernelIdeal_ReferenceIdeal := by
  intro m ρ m' ρ' hpre hagree
  refine ⟨fun c => Cert.ReferenceIdeal.Read.val_main_v34 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.GC.run_main (F := Ideal) m ρ)
    · refine (h c _ (Cert.KernelIdeal.GC.mem_uc Cert.KernelIdeal.main_v6 (by decide))).trans ?_
      refine (Cert.KernelIdeal.GC.V₃_v6 m c).trans ?_
      funext i
      exact Cert.KernelIdeal.GC.result_ideal m c hpre i
    · exact (h c _ (Cert.KernelIdeal.GC.mem_uc Cert.KernelIdeal.main_arg0 (by decide))).trans (Cert.KernelIdeal.GC.V₃_arg0 m c)
    · exact (h c _ (Cert.KernelIdeal.GC.mem_uc Cert.KernelIdeal.main_arg1 (by decide))).trans (Cert.KernelIdeal.GC.V₃_arg1 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v34_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
